-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x21x3 : Shape := ⟨3, ![1048576, 21, 3]⟩
abbrev S20x2 : Shape := ⟨2, ![20, 2]⟩
abbrev S_ : Shape := ⟨0, ![]⟩

class Facts : Prop where
  bcast_S_S1048576x21x3 : S_.BroadcastsInDim S1048576x21x3 (![] : Fin 0 → Fin S1048576x21x3.rank)
  reducesTo_S1048576x21x3_S_d0_1_2 : S1048576x21x3.ReducesTo [0, 1, 2] S_
  h_S_ : 0 < S_.numel
  bcast_S_S20x2 : S_.BroadcastsInDim S20x2 (![] : Fin 0 → Fin S20x2.rank)
  reducesTo_S20x2_S_d0_1 : S20x2.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S1048576x21x3 .f32) (main_arg1 : FVec F S1048576x21x3 .f32) (main_arg2 : IVec S20x2 32) : IVec S_ 1 :=
  let main_v0 : FVec F S1048576x21x3 .f32 := Host.absf main_arg0
  let main_cst : FVec F S_ .f32 := constant S_ .f32 0x7F800000#32
  let main_v1 : FVec F S1048576x21x3 .f32 := broadcastInDim S1048576x21x3 ![] bcast_S_S1048576x21x3 main_cst
  let main_v2 : IVec S1048576x21x3 1 := cmpf .olt main_v0 main_v1
  let main_c : IVec S_ 1 := constantI S_ 1 1#1
  let main_v3 : IVec S_ 1 := (fun x v => Host.reduce IntOp.andi x v reducesTo_S1048576x21x3_S_d0_1_2 h_S_) main_v2 main_c
  let main_v4 : FVec F S1048576x21x3 .f32 := Host.absf main_arg1
  let main_cst_0 : FVec F S_ .f32 := constant S_ .f32 0x7F800000#32
  let main_v5 : FVec F S1048576x21x3 .f32 := broadcastInDim S1048576x21x3 ![] bcast_S_S1048576x21x3 main_cst_0
  let main_v6 : IVec S1048576x21x3 1 := cmpf .olt main_v4 main_v5
  let main_c_1 : IVec S_ 1 := constantI S_ 1 1#1
  let main_v7 : IVec S_ 1 := (fun x v => Host.reduce IntOp.andi x v reducesTo_S1048576x21x3_S_d0_1_2 h_S_) main_v6 main_c_1
  let main_v8 : IVec S_ 1 := andi main_v3 main_v7
  let main_c_2 : IVec S_ 32 := constantI S_ 32 0#32
  let main_v9 : IVec S20x2 32 := broadcastInDim S20x2 ![] bcast_S_S20x2 main_c_2
  let main_v10 : IVec S20x2 1 := cmpi .sge main_arg2 main_v9
  let main_c_3 : IVec S_ 1 := constantI S_ 1 1#1
  let main_v11 : IVec S_ 1 := (fun x v => Host.reduce IntOp.andi x v reducesTo_S20x2_S_d0_1 h_S_) main_v10 main_c_3
  let main_v12 : IVec S_ 1 := andi main_v8 main_v11
  let main_c_4 : IVec S_ 32 := constantI S_ 32 21#32
  let main_v13 : IVec S20x2 32 := broadcastInDim S20x2 ![] bcast_S_S20x2 main_c_4
  let main_v14 : IVec S20x2 1 := cmpi .slt main_arg2 main_v13
  let main_c_5 : IVec S_ 1 := constantI S_ 1 1#1
  let main_v15 : IVec S_ 1 := (fun x v => Host.reduce IntOp.andi x v reducesTo_S20x2_S_d0_1 h_S_) main_v14 main_c_5
  fn_part1 (F := F) main_v12 main_v15
-- ==== Kernel.lean ====
abbrev S1048576x21x3 : Shape := ⟨3, ![1048576, 21, 3]⟩
abbrev S20x2 : Shape := ⟨2, ![20, 2]⟩
abbrev S_ : Shape := ⟨0, ![]⟩
abbrev S20x1 : Shape := ⟨2, ![20, 1]⟩
abbrev S20 : Shape := ⟨1, ![20]⟩
abbrev S1x63 : Shape := ⟨2, ![1, 63]⟩
abbrev S20x63 : Shape := ⟨2, ![20, 63]⟩
abbrev S63x20 : Shape := ⟨2, ![63, 20]⟩
abbrev S63x60 : Shape := ⟨2, ![63, 60]⟩
abbrev S1048576x63 : Shape := ⟨2, ![1048576, 63]⟩
abbrev S1048576 : Shape := ⟨1, ![1048576]⟩
abbrev S8192x63 : Shape := ⟨2, ![8192, 63]⟩
abbrev S8192 : Shape := ⟨1, ![8192]⟩
abbrev S8192x60 : Shape := ⟨2, ![8192, 60]⟩
abbrev S8192x20 : Shape := ⟨2, ![8192, 20]⟩

abbrev nBuf : Space → Nat
  | .hbm => 106
  | .vmem => 7
  | .smem => 0
  | _ => 0

abbrev bufTy : (tb : Table) → Fin (tcTables nBuf tb) → BufTy
  | .hbm, ⟨0, _⟩ => ⟨S1048576x21x3, .f32⟩
  | .hbm, ⟨1, _⟩ => ⟨S1048576x21x3, .f32⟩
  | .hbm, ⟨2, _⟩ => ⟨S20x2, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S20x2, .i32⟩
  | .hbm, ⟨7, _⟩ => ⟨S20x2, .i32⟩
  | .hbm, ⟨8, _⟩ => ⟨S_, .i32⟩
  | .hbm, ⟨9, _⟩ => ⟨S20x2, .i32⟩
  | .hbm, ⟨10, _⟩ => ⟨S20x2, .i32⟩
  | .hbm, ⟨11, _⟩ => ⟨S20x1, .i32⟩
  | .hbm, ⟨12, _⟩ => ⟨S20, .i32⟩
  | .hbm, ⟨13, _⟩ => ⟨S_, .i32⟩
  | .hbm, ⟨14, _⟩ => ⟨S20, .i32⟩
  | .hbm, ⟨15, _⟩ => ⟨S20, .i32⟩
  | .hbm, ⟨16, _⟩ => ⟨S_, .i32⟩
  | .hbm, ⟨17, _⟩ => ⟨S20, .i32⟩
  | .hbm, ⟨18, _⟩ => ⟨S20, .i32⟩
  | .hbm, ⟨19, _⟩ => ⟨S20x1, .i32⟩
  | .hbm, ⟨20, _⟩ => ⟨S20, .i32⟩
  | .hbm, ⟨21, _⟩ => ⟨S_, .i32⟩
  | .hbm, ⟨22, _⟩ => ⟨S20, .i32⟩
  | .hbm, ⟨23, _⟩ => ⟨S20, .i32⟩
  | .hbm, ⟨24, _⟩ => ⟨S_, .i32⟩
  | .hbm, ⟨25, _⟩ => ⟨S20, .i32⟩
  | .hbm, ⟨26, _⟩ => ⟨S20, .i32⟩
  | .hbm, ⟨27, _⟩ => ⟨S20x1, .i32⟩
  | .hbm, ⟨28, _⟩ => ⟨S1x63, .i32⟩
  | .hbm, ⟨29, _⟩ => ⟨S20x63, .i32⟩
  | .hbm, ⟨30, _⟩ => ⟨S20x63, .i32⟩
  | .hbm, ⟨31, _⟩ => ⟨S20x63, .i1⟩
  | .hbm, ⟨32, _⟩ => ⟨S20x63, .f32⟩
  | .hbm, ⟨33, _⟩ => ⟨S20x1, .i32⟩
  | .hbm, ⟨34, _⟩ => ⟨S1x63, .i32⟩
  | .hbm, ⟨35, _⟩ => ⟨S20x63, .i32⟩
  | .hbm, ⟨36, _⟩ => ⟨S20x63, .i32⟩
  | .hbm, ⟨37, _⟩ => ⟨S20x63, .i1⟩
  | .hbm, ⟨38, _⟩ => ⟨S20x63, .f32⟩
  | .hbm, ⟨39, _⟩ => ⟨S20x63, .f32⟩
  | .hbm, ⟨40, _⟩ => ⟨S63x20, .f32⟩
  | .hbm, ⟨41, _⟩ => ⟨S20x1, .i32⟩
  | .hbm, ⟨42, _⟩ => ⟨S20, .i32⟩
  | .hbm, ⟨43, _⟩ => ⟨S_, .i32⟩
  | .hbm, ⟨44, _⟩ => ⟨S20, .i32⟩
  | .hbm, ⟨45, _⟩ => ⟨S20, .i32⟩
  | .hbm, ⟨46, _⟩ => ⟨S_, .i32⟩
  | .hbm, ⟨47, _⟩ => ⟨S20, .i32⟩
  | .hbm, ⟨48, _⟩ => ⟨S20, .i32⟩
  | .hbm, ⟨49, _⟩ => ⟨S20x1, .i32⟩
  | .hbm, ⟨50, _⟩ => ⟨S20, .i32⟩
  | .hbm, ⟨51, _⟩ => ⟨S_, .i32⟩
  | .hbm, ⟨52, _⟩ => ⟨S20, .i32⟩
  | .hbm, ⟨53, _⟩ => ⟨S20, .i32⟩
  | .hbm, ⟨54, _⟩ => ⟨S_, .i32⟩
  | .hbm, ⟨55, _⟩ => ⟨S20, .i32⟩
  | .hbm, ⟨56, _⟩ => ⟨S20, .i32⟩
  | .hbm, ⟨57, _⟩ => ⟨S20x1, .i32⟩
  | .hbm, ⟨58, _⟩ => ⟨S1x63, .i32⟩
  | .hbm, ⟨59, _⟩ => ⟨S20x63, .i32⟩
  | .hbm, ⟨60, _⟩ => ⟨S20x63, .i32⟩
  | .hbm, ⟨61, _⟩ => ⟨S20x63, .i1⟩
  | .hbm, ⟨62, _⟩ => ⟨S20x63, .f32⟩
  | .hbm, ⟨63, _⟩ => ⟨S20x1, .i32⟩
  | .hbm, ⟨64, _⟩ => ⟨S1x63, .i32⟩
  | .hbm, ⟨65, _⟩ => ⟨S20x63, .i32⟩
  | .hbm, ⟨66, _⟩ => ⟨S20x63, .i32⟩
  | .hbm, ⟨67, _⟩ => ⟨S20x63, .i1⟩
  | .hbm, ⟨68, _⟩ => ⟨S20x63, .f32⟩
  | .hbm, ⟨69, _⟩ => ⟨S20x63, .f32⟩
  | .hbm, ⟨70, _⟩ => ⟨S63x20, .f32⟩
  | .hbm, ⟨71, _⟩ => ⟨S20x1, .i32⟩
  | .hbm, ⟨72, _⟩ => ⟨S20, .i32⟩
  | .hbm, ⟨73, _⟩ => ⟨S_, .i32⟩
  | .hbm, ⟨74, _⟩ => ⟨S20, .i32⟩
  | .hbm, ⟨75, _⟩ => ⟨S20, .i32⟩
  | .hbm, ⟨76, _⟩ => ⟨S_, .i32⟩
  | .hbm, ⟨77, _⟩ => ⟨S20, .i32⟩
  | .hbm, ⟨78, _⟩ => ⟨S20, .i32⟩
  | .hbm, ⟨79, _⟩ => ⟨S20x1, .i32⟩
  | .hbm, ⟨80, _⟩ => ⟨S20, .i32⟩
  | .hbm, ⟨81, _⟩ => ⟨S_, .i32⟩
  | .hbm, ⟨82, _⟩ => ⟨S20, .i32⟩
  | .hbm, ⟨83, _⟩ => ⟨S20, .i32⟩
  | .hbm, ⟨84, _⟩ => ⟨S_, .i32⟩
  | .hbm, ⟨85, _⟩ => ⟨S20, .i32⟩
  | .hbm, ⟨86, _⟩ => ⟨S20, .i32⟩
  | .hbm, ⟨87, _⟩ => ⟨S20x1, .i32⟩
  | .hbm, ⟨88, _⟩ => ⟨S1x63, .i32⟩
  | .hbm, ⟨89, _⟩ => ⟨S20x63, .i32⟩
  | .hbm, ⟨90, _⟩ => ⟨S20x63, .i32⟩
  | .hbm, ⟨91, _⟩ => ⟨S20x63, .i1⟩
  | .hbm, ⟨92, _⟩ => ⟨S20x63, .f32⟩
  | .hbm, ⟨93, _⟩ => ⟨S20x1, .i32⟩
  | .hbm, ⟨94, _⟩ => ⟨S1x63, .i32⟩
  | .hbm, ⟨95, _⟩ => ⟨S20x63, .i32⟩
  | .hbm, ⟨96, _⟩ => ⟨S20x63, .i32⟩
  | .hbm, ⟨97, _⟩ => ⟨S20x63, .i1⟩
  | .hbm, ⟨98, _⟩ => ⟨S20x63, .f32⟩
  | .hbm, ⟨99, _⟩ => ⟨S20x63, .f32⟩
  | .hbm, ⟨100, _⟩ => ⟨S63x20, .f32⟩
  | .hbm, ⟨101, _⟩ => ⟨S63x60, .f32⟩
  | .hbm, ⟨102, _⟩ => ⟨S63x60, .bf16⟩
  | .hbm, ⟨103, _⟩ => ⟨S1048576x63, .f32⟩
  | .hbm, ⟨104, _⟩ => ⟨S1048576x63, .f32⟩
  | .hbm, ⟨105, _⟩ => ⟨S1048576, .f32⟩
  | .local _ .vmem, ⟨0, _⟩ => ⟨S8192x63, .f32⟩
  | .local _ .vmem, ⟨1, _⟩ => ⟨S8192x63, .f32⟩
  | .local _ .vmem, ⟨2, _⟩ => ⟨S8192x63, .f32⟩
  | .local _ .vmem, ⟨3, _⟩ => ⟨S8192x63, .f32⟩
  | .local _ .vmem, ⟨4, _⟩ => ⟨S63x60, .bf16⟩
  | .local _ .vmem, ⟨5, _⟩ => ⟨S8192, .f32⟩
  | .local _ .vmem, ⟨6, _⟩ => ⟨S8192, .f32⟩
  | _, _ => ⟨S1048576x21x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_1 : Ref sig .tc := ⟨.hbm, 13, rfl⟩
abbrev main_v3 : Ref sig .tc := ⟨.hbm, 14, rfl⟩
abbrev main_v4 : Ref sig .tc := ⟨.hbm, 15, rfl⟩
abbrev main_c_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_c_4 : Ref sig .tc := ⟨.hbm, 24, rfl⟩
abbrev main_v11 : Ref sig .tc := ⟨.hbm, 25, rfl⟩
abbrev main_v12 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_v13 : Ref sig .tc := ⟨.hbm, 32, rfl⟩
abbrev main_call2_v0 : Ref sig .tc := ⟨.hbm, 33, rfl⟩
abbrev main_call2_v1 : Ref sig .tc := ⟨.hbm, 34, rfl⟩
abbrev main_call2_v2 : Ref sig .tc := ⟨.hbm, 35, rfl⟩
abbrev main_call2_v3 : Ref sig .tc := ⟨.hbm, 36, rfl⟩
abbrev main_call2_v4 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_c_5 : Ref sig .tc := ⟨.hbm, 43, rfl⟩
abbrev main_v19 : Ref sig .tc := ⟨.hbm, 44, rfl⟩
abbrev main_v20 : Ref sig .tc := ⟨.hbm, 45, rfl⟩
abbrev main_c_6 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_7 : Ref sig .tc := ⟨.hbm, 51, rfl⟩
abbrev main_v25 : Ref sig .tc := ⟨.hbm, 52, rfl⟩
abbrev main_v26 : Ref sig .tc := ⟨.hbm, 53, rfl⟩
abbrev main_c_8 : Ref sig .tc := ⟨.hbm, 54, rfl⟩
abbrev main_v27 : Ref sig .tc := ⟨.hbm, 55, rfl⟩
abbrev main_v28 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v29 : Ref sig .tc := ⟨.hbm, 62, rfl⟩
abbrev main_call4_v0 : Ref sig .tc := ⟨.hbm, 63, rfl⟩
abbrev main_call4_v1 : Ref sig .tc := ⟨.hbm, 64, rfl⟩
abbrev main_call4_v2 : Ref sig .tc := ⟨.hbm, 65, rfl⟩
abbrev main_call4_v3 : Ref sig .tc := ⟨.hbm, 66, rfl⟩
abbrev main_call4_v4 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_c_9 : Ref sig .tc := ⟨.hbm, 73, rfl⟩
abbrev main_v35 : Ref sig .tc := ⟨.hbm, 74, rfl⟩
abbrev main_v36 : Ref sig .tc := ⟨.hbm, 75, rfl⟩
abbrev main_c_10 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_c_11 : Ref sig .tc := ⟨.hbm, 81, rfl⟩
abbrev main_v41 : Ref sig .tc := ⟨.hbm, 82, rfl⟩
abbrev main_v42 : Ref sig .tc := ⟨.hbm, 83, rfl⟩
abbrev main_c_12 : Ref sig .tc := ⟨.hbm, 84, rfl⟩
abbrev main_v43 : Ref sig .tc := ⟨.hbm, 85, rfl⟩
abbrev main_v44 : Ref sig .tc := ⟨.hbm, 86, rfl⟩
abbrev main_call5_v0 : Ref sig .tc := ⟨.hbm, 87, rfl⟩
abbrev main_call5_v1 : Ref sig .tc := ⟨.hbm, 88, rfl⟩
abbrev main_call5_v2 : Ref sig .tc := ⟨.hbm, 89, rfl⟩
abbrev main_call5_v3 : Ref sig .tc := ⟨.hbm, 90, rfl⟩
abbrev main_call5_v4 : Ref sig .tc := ⟨.hbm, 91, rfl⟩
abbrev main_v45 : Ref sig .tc := ⟨.hbm, 92, rfl⟩
abbrev main_call6_v0 : Ref sig .tc := ⟨.hbm, 93, rfl⟩
abbrev main_call6_v1 : Ref sig .tc := ⟨.hbm, 94, rfl⟩
abbrev main_call6_v2 : Ref sig .tc := ⟨.hbm, 95, rfl⟩
abbrev main_call6_v3 : Ref sig .tc := ⟨.hbm, 96, rfl⟩
abbrev main_call6_v4 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x63 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x63 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S63x60 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S20x2 : S_.BroadcastsInDim S20x2 (![] : Fin 0 → Fin S20x2.rank)
  slices_S20x2_S20x1_0_0 : S20x2.Slices ![0, 0] S20x1
  shapeCasts_S20x1_S20 : S20x1.ShapeCasts S20
  bcast_S_S20 : S_.BroadcastsInDim S20 (![] : Fin 0 → Fin S20.rank)
  slices_S20x2_S20x1_0_1 : S20x2.Slices ![0, 1] S20x1
  bcast_S20_S20x1_0 : S20.BroadcastsInDim S20x1 (![0] : Fin 1 → Fin S20x1.rank)
  bcast_S20x1_S20x63_0_1 : S20x1.BroadcastsInDim S20x63 (![0, 1] : Fin 2 → Fin S20x63.rank)
  bcast_S1x63_S20x63_0_1 : S1x63.BroadcastsInDim S20x63 (![0, 1] : Fin 2 → Fin S20x63.rank)
  transposes_S20x63_S63x20_1_0 : S20x63.Transposes [1, 0] S63x20
  concatenates_S63x20_S63x20_S63x20_S63x60_d1 : Shape.Concatenates [S63x20, S63x20, S63x20] S63x60 1
  bitsLt_bf16_f32 : FTy.bits .bf16 < FTy.bits .f32
  shapeCasts_S1048576x21x3_S1048576x63 : S1048576x21x3.ShapeCasts S1048576x63
  inb_S8192x63_S8192x63_0_0 : ∀ a, (![0, 0] : Fin 2 → Nat) a + S8192x63.size a ≤ S8192x63.size a
  h_S8192x63 : 0 < S8192x63.numel
  shapeCasts_S8192x63_S8192x63 : S8192x63.ShapeCasts S8192x63
  inb_S63x60_S63x60_0_0 : ∀ a, (![0, 0] : Fin 2 → Nat) a + S63x60.size a ≤ S63x60.size a
  h_S63x60 : 0 < S63x60.numel
  shapeCasts_S63x60_S63x60 : S63x60.ShapeCasts S63x60
  slices_S8192x60_o0_0_S8192x20 : S8192x60.Slices ![0, 0] S8192x20
  slices_S8192x60_o0_20_S8192x20 : S8192x60.Slices ![0, 20] S8192x20
  slices_S8192x60_o0_40_S8192x20 : S8192x60.Slices ![0, 40] S8192x20
  reduces_S8192x20_S8192 : S8192x20.Reduces [1] S8192
  inb_S8192_S8192_0 : ∀ a, (![0] : Fin 1 → Nat) a + S8192.size a ≤ S8192.size a
  h_S8192 : 0 < S8192.numel
  dot_S8192x63_S63x60_S8192x60_1_0_0_1_n_n_wf : DotDims.WF S8192x63 S63x60 S8192x60 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x63.size a ≤ S1048576x63.size a
  hwx0_0 : ∀ i : grid0.Coords, EltTy.bits .f32 = 32 ∨ (Rect.block (s := S1048576x63) S8192x63.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x63.size a ≤ S1048576x63.size a
  hwx0_1 : ∀ i : grid0.Coords, EltTy.bits .f32 = 32 ∨ (Rect.block (s := S1048576x63) S8192x63.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S63x60.size a ≤ S63x60.size a
  hwx0_2 : ∀ i : grid0.Coords, EltTy.bits .bf16 = 32 ∨ (Rect.block (s := S63x60) S63x60.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192.size a ≤ S1048576.size a
  hwx0_3 : ∀ i : grid0.Coords, EltTy.bits .f32 = 32 ∨ (Rect.block (s := S1048576) S8192.size (cc0_transform_3 i) (hinb0_3 i)).WholeWords (EltTy.packing .f32)

variable [Facts₀]

def dot_S8192x63_S63x60_S8192x60_1_0_0_1_n_n : DotDims S8192x63 S63x60 S8192x60 where
  lhsContracting := [1]
  rhsContracting := [0]
  lhsNonContracting := [0]
  rhsNonContracting := [1]
  lhsBatch := []
  rhsBatch := []
  wf := dot_S8192x63_S63x60_S8192x60_1_0_0_1_n_n_wf

abbrev win0_0 : Pipeline.Window sig grid0 :=
  Pipeline.Window.ofSpec (Memref.whole main_v51) S8192x63.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S8192x63.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v50) S63x60.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v53) S8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576x21x3 : Shape := ⟨3, ![1048576, 21, 3]⟩
abbrev S20x2 : Shape := ⟨2, ![20, 2]⟩
abbrev S20x1 : Shape := ⟨2, ![20, 1]⟩
abbrev S20 : Shape := ⟨1, ![20]⟩
abbrev S_ : Shape := ⟨0, ![]⟩
abbrev S1048576x20x3 : Shape := ⟨3, ![1048576, 20, 3]⟩
abbrev S1048576x20 : Shape := ⟨2, ![1048576, 20]⟩
abbrev S1048576 : Shape := ⟨1, ![1048576]⟩

abbrev nBuf : Space → Nat
  | .hbm => 61
  | .vmem => 0
  | .smem => 0
  | _ => 0

abbrev bufTy : (tb : Table) → Fin (tcTables nBuf tb) → BufTy
  | .hbm, ⟨0, _⟩ => ⟨S1048576x21x3, .f32⟩
  | .hbm, ⟨1, _⟩ => ⟨S1048576x21x3, .f32⟩
  | .hbm, ⟨2, _⟩ => ⟨S20x2, .i32⟩
  | .hbm, ⟨3, _⟩ => ⟨S20x1, .i32⟩
  | .hbm, ⟨4, _⟩ => ⟨S20, .i32⟩
  | .hbm, ⟨5, _⟩ => ⟨S_, .i32⟩
  | .hbm, ⟨6, _⟩ => ⟨S20, .i32⟩
  | .hbm, ⟨7, _⟩ => ⟨S20, .i1⟩
  | .hbm, ⟨8, _⟩ => ⟨S_, .i32⟩
  | .hbm, ⟨9, _⟩ => ⟨S20, .i32⟩
  | .hbm, ⟨10, _⟩ => ⟨S20, .i32⟩
  | .hbm, ⟨11, _⟩ => ⟨S20, .i32⟩
  | .hbm, ⟨12, _⟩ => ⟨S20x1, .i32⟩
  | .hbm, ⟨13, _⟩ => ⟨S1048576x20x3, .f32⟩
  | .hbm, ⟨14, _⟩ => ⟨S20x1, .i32⟩
  | .hbm, ⟨15, _⟩ => ⟨S20, .i32⟩
  | .hbm, ⟨16, _⟩ => ⟨S_, .i32⟩
  | .hbm, ⟨17, _⟩ => ⟨S20, .i32⟩
  | .hbm, ⟨18, _⟩ => ⟨S20, .i1⟩
  | .hbm, ⟨19, _⟩ => ⟨S_, .i32⟩
  | .hbm, ⟨20, _⟩ => ⟨S20, .i32⟩
  | .hbm, ⟨21, _⟩ => ⟨S20, .i32⟩
  | .hbm, ⟨22, _⟩ => ⟨S20, .i32⟩
  | .hbm, ⟨23, _⟩ => ⟨S20x1, .i32⟩
  | .hbm, ⟨24, _⟩ => ⟨S1048576x20x3, .f32⟩
  | .hbm, ⟨25, _⟩ => ⟨S1048576x20x3, .f32⟩
  | .hbm, ⟨26, _⟩ => ⟨S1048576x20x3, .f32⟩
  | .hbm, ⟨27, _⟩ => ⟨S_, .f32⟩
  | .hbm, ⟨28, _⟩ => ⟨S1048576x20, .f32⟩
  | .hbm, ⟨29, _⟩ => ⟨S1048576x20, .f32⟩
  | .hbm, ⟨30, _⟩ => ⟨S20x1, .i32⟩
  | .hbm, ⟨31, _⟩ => ⟨S20, .i32⟩
  | .hbm, ⟨32, _⟩ => ⟨S_, .i32⟩
  | .hbm, ⟨33, _⟩ => ⟨S20, .i32⟩
  | .hbm, ⟨34, _⟩ => ⟨S20, .i1⟩
  | .hbm, ⟨35, _⟩ => ⟨S_, .i32⟩
  | .hbm, ⟨36, _⟩ => ⟨S20, .i32⟩
  | .hbm, ⟨37, _⟩ => ⟨S20, .i32⟩
  | .hbm, ⟨38, _⟩ => ⟨S20, .i32⟩
  | .hbm, ⟨39, _⟩ => ⟨S20x1, .i32⟩
  | .hbm, ⟨40, _⟩ => ⟨S1048576x20x3, .f32⟩
  | .hbm, ⟨41, _⟩ => ⟨S20x1, .i32⟩
  | .hbm, ⟨42, _⟩ => ⟨S20, .i32⟩
  | .hbm, ⟨43, _⟩ => ⟨S_, .i32⟩
  | .hbm, ⟨44, _⟩ => ⟨S20, .i32⟩
  | .hbm, ⟨45, _⟩ => ⟨S20, .i1⟩
  | .hbm, ⟨46, _⟩ => ⟨S_, .i32⟩
  | .hbm, ⟨47, _⟩ => ⟨S20, .i32⟩
  | .hbm, ⟨48, _⟩ => ⟨S20, .i32⟩
  | .hbm, ⟨49, _⟩ => ⟨S20, .i32⟩
  | .hbm, ⟨50, _⟩ => ⟨S20x1, .i32⟩
  | .hbm, ⟨51, _⟩ => ⟨S1048576x20x3, .f32⟩
  | .hbm, ⟨52, _⟩ => ⟨S1048576x20x3, .f32⟩
  | .hbm, ⟨53, _⟩ => ⟨S1048576x20x3, .f32⟩
  | .hbm, ⟨54, _⟩ => ⟨S_, .f32⟩
  | .hbm, ⟨55, _⟩ => ⟨S1048576x20, .f32⟩
  | .hbm, ⟨56, _⟩ => ⟨S1048576x20, .f32⟩
  | .hbm, ⟨57, _⟩ => ⟨S1048576x20, .f32⟩
  | .hbm, ⟨58, _⟩ => ⟨S1048576x20, .f32⟩
  | .hbm, ⟨59, _⟩ => ⟨S_, .f32⟩
  | .hbm, ⟨60, _⟩ => ⟨S1048576, .f32⟩
  | _, _ => ⟨S1048576x21x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_3 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_5 : Ref sig .tc := ⟨.hbm, 43, rfl⟩
abbrev main_v33 : Ref sig .tc := ⟨.hbm, 44, rfl⟩
abbrev main_v34 : Ref sig .tc := ⟨.hbm, 45, rfl⟩
abbrev main_c_6 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_7 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩

abbrev nD : Nat := 1
abbrev τ : Topo := Topo.v7x

variable {F : FTy → Type} [FloatOps F]

class Facts₀ : Prop where
  slices_S20x2_S20x1_0_0 : S20x2.Slices ![0, 0] S20x1
  shapeCasts_S20x1_S20 : S20x1.ShapeCasts S20
  bcast_S_S20 : S_.BroadcastsInDim S20 (![] : Fin 0 → Fin S20.rank)
  bcast_S20_S20x1_0 : S20.BroadcastsInDim S20x1 (![0] : Fin 1 → Fin S20x1.rank)
  slices_S20x2_S20x1_0_1 : S20x2.Slices ![0, 1] S20x1
  reducesTo_S1048576x20x3_S1048576x20_d2 : S1048576x20x3.ReducesTo [2] S1048576x20
  h_S_ : 0 < S_.numel
  reducesTo_S1048576x20_S1048576_d1 : S1048576x20.ReducesTo [1] S1048576
  gather_S1048576x21x3_S20x1_S1048576x20x3_02_1_n_n_1_1_104857613_wf : GatherDims.WF S1048576x21x3 S20x1 S1048576x20x3 [0, 2] [1] [] [1] [] 1 ![1048576, 1, 3]

variable [Facts₀]

def gather_S1048576x21x3_S20x1_S1048576x20x3_02_1_n_n_1_1_104857613 : GatherDims S1048576x21x3 S20x1 S1048576x20x3 where
  offsetDims := [0, 2]
  collapsedSliceDims := [1]
  operandBatchingDims := []
  startIndicesBatchingDims := []
  startIndexMap := [1]
  indexVectorDim := 1
  sliceSizes := ![1048576, 1, 3]
  wf := gather_S1048576x21x3_S20x1_S1048576x20x3_02_1_n_n_1_1_104857613_wf

class Facts : Prop extends Facts₀ where

variable [Facts]
-- ==== Proof.FrameB.lean ====
/-
  The frame of the bone-length-loss program as printed, read at any float instance.

  @main is twelve stretches of host operations (the clipped skeleton, six one-hot tables, their
  differences transposed and laid side by side into the 63 x 60 selection matrix, its change of
  format, and the two coordinate arrays re-laid as 1048576 x 63) followed by one region over a grid of
  128 points. No host operation writes an argument array, so the region finds the three arguments as
  launched. At a point the body reads its three input blocks whole (two 8192 x 63 coordinate blocks
  and the selection matrix, which is fetched once and never moves) and overwrites its 8192-entry
  output block with one value computed from them; the inputs' staging buffers are left as found.
  From that: what every staging buffer holds after the body at every point, the body's triple, the
  pipeline's run, and the frame — every weakly fair execution ends, faults nowhere, and the argument
  arrays end as they began — together with the output array named block by block.
-/
import proofs.«408830_j24043226923676_3_alg».proof.Proof.Gen.Kernel.Launch
import proofs.«408830_j24043226923676_3_alg».proof.Proof.Gen.Kernel.Skeleton
import proofs.«408830_j24043226923676_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The host operations before the region, stretch by stretch, in program order. -/
abbrev stretches : List (List (HloOp τ sig (Elt F))) :=
  [hostOps0, hostOps0_1, hostOps0_2, hostOps0_3, hostOps0_4, hostOps0_5, hostOps0_6, hostOps0_7, hostOps0_8,
    hostOps0_9, hostOps0_10, hostOps0_11]

/-- What core `c`'s buffers hold when the region is entered: the launch memory after every host operation. -/
abbrev entry (c : Dev nD) (b : Ref sig .tc) : Buf (Elt F) ((c : Thread nD τ).loc b) :=
  StableHlo.after (List.flatten stretches) (fun b => m (c, b)) b

/-- No host operation allocates. -/
theorem stretches_fresh : (stretches : List (List (HloOp τ sig (Elt F)))).Forall fun ops => ops.Forall fun op => op.fresh = ∅ := by
  simp only [List.Forall]; repeat' constructor

/-- Every host operation touches TensorCore buffers only. -/
theorem stretches_sub : (stretches : List (List (HloOp τ sig (Elt F)))).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub,
    hostOps0_7_sub, hostOps0_8_sub, hostOps0_9_sub, hostOps0_10_sub, hostOps0_11_sub⟩

/-- @main is its host operations, then the region. -/
theorem main_upto (𝒱₀ : Variants) : Pipeline.HMain (Ix := Unit) (Name := ℕ) (U := UR sig nD τ) (Lvl := ℕ) cfgs 0 defs₀ 𝒱₀ m (main (F := F)) (entry m) :=
  Pipeline.hmain_prefixes cfgs 0 defs₀ 𝒱₀ m main stretches stretches_sub stretches_fresh main_chain

/-- A buffer that is none of the host operations' results is found as launched. -/
theorem entry_of_unwritten (c : Dev nD) (b : Ref sig .tc)
    (hb : ∀ op ∈ List.flatten (stretches : List (List (HloOp τ sig (Elt F)))), Proc.devRef .tc b ∉ op.writes) :
    entry m c b = m ((c : Thread nD τ).loc b) :=
  StableHlo.after_of_forall_not_mem (b := Proc.devRef .tc b) _ _ hb

/-- The first coordinate array is no host operation's result. -/
theorem entry_arg0 (c : Dev nD) : entry m c main_arg0 = m ((c : Thread nD τ).loc main_arg0) :=
  entry_of_unwritten m c main_arg0 (List.forall_iff_forall_mem.mp (by
    simp only [stretches, hostOps0, hostOps0_1, hostOps0_2, hostOps0_3, hostOps0_4, hostOps0_5, hostOps0_6, hostOps0_7,
      hostOps0_8, hostOps0_9, hostOps0_10, hostOps0_11, List.flatten_cons, List.flatten_nil, List.append_nil,
      List.cons_append, List.nil_append, List.Forall, StableHlo.nullary_writes, StableHlo.unary_writes,
      StableHlo.binary_writes, StableHlo.reshape_writes, StableHlo.nary_writes, Finset.mem_singleton]
    repeat' apply And.intro
    all_goals exact StableHlo.devRef_ne_of_ne (by decide)))

/-- Nor is the second. -/
theorem entry_arg1 (c : Dev nD) : entry m c main_arg1 = m ((c : Thread nD τ).loc main_arg1) :=
  entry_of_unwritten m c main_arg1 (List.forall_iff_forall_mem.mp (by
    simp only [stretches, hostOps0, hostOps0_1, hostOps0_2, hostOps0_3, hostOps0_4, hostOps0_5, hostOps0_6, hostOps0_7,
      hostOps0_8, hostOps0_9, hostOps0_10, hostOps0_11, List.flatten_cons, List.flatten_nil, List.append_nil,
      List.cons_append, List.nil_append, List.Forall, StableHlo.nullary_writes, StableHlo.unary_writes,
      StableHlo.binary_writes, StableHlo.reshape_writes, StableHlo.nary_writes, Finset.mem_singleton]
    repeat' apply And.intro
    all_goals exact StableHlo.devRef_ne_of_ne (by decide)))

/-- Nor the skeleton table. -/
theorem entry_arg2 (c : Dev nD) : entry m c main_arg2 = m ((c : Thread nD τ).loc main_arg2) :=
  entry_of_unwritten m c main_arg2 (List.forall_iff_forall_mem.mp (by
    simp only [stretches, hostOps0, hostOps0_1, hostOps0_2, hostOps0_3, hostOps0_4, hostOps0_5, hostOps0_6, hostOps0_7,
      hostOps0_8, hostOps0_9, hostOps0_10, hostOps0_11, List.flatten_cons, List.flatten_nil, List.append_nil,
      List.cons_append, List.nil_append, List.Forall, StableHlo.nullary_writes, StableHlo.unary_writes,
      StableHlo.binary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's staging buffer holds the window's block at every point, whether the point fetched it or the
    block index stood still (the selection matrix is fetched once and its index never moves): for any proof data
    over the entry contents whose body leaves input blocks in place. The first coordinate window: -/
theorem found0 {c : Dev nD} (dat : Dat τ (Elt F) Unit ℕ (UR sig nD τ) ℕ cfg0 c)
    (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- the second coordinate window: -/
theorem found1 {c : Dev nD} (dat : Dat τ (Elt F) Unit ℕ (UR sig nD τ) ℕ cfg0 c)
    (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- the selection matrix's window: -/
theorem found2 {c : Dev nD} (dat : Dat τ (Elt F) Unit ℕ (UR sig nD τ) ℕ cfg0 c)
    (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The body -/

/-- The whole of a coordinate block, of the selection matrix, of the output block. -/
abbrev wholeXY : Rect S8192x63 := Rect.unit (s := S8192x63) ![0, 0] S8192x63.size inb_S8192x63_S8192x63_0_0
abbrev wholeSel : Rect S63x60 := Rect.unit (s := S63x60) ![0, 0] S63x60.size inb_S63x60_S63x60_0_0
abbrev wholeOut : Rect S8192 := Rect.unit (s := S8192) ![0] S8192.size inb_S8192_S8192_0

/-- What the body leaves in the output block's buffer, from the three input blocks: its one store. -/
def lossBlock (x y : Vec F S8192x63 .f32) (s : Vec F S63x60 .bf16) : Vec F S8192 .f32 :=
  View.canon [⟨wholeOut, k0_pay1 (View.ld x wholeXY) (View.ld y wholeXY) (View.ld s wholeSel)⟩]

/-- The store is of the whole buffer. -/
theorem lossBlock_cover (p : Vec F S8192 .f32) (j : S8192.Idx) :
    ∃ pc ∈ ([⟨wholeOut, p⟩] : List (View.Piece (Elt F) S8192 .f32)), j ∈ pc.1.set :=
  View.cover_of_tiled [⟨wholeOut, p⟩] S8192.size (by rfl) j

set_option maxHeartbeats 1000000 in
/-- The body on whole staging buffers — the inputs' at known contents, the output's at anything — runs to its
    continuation with the inputs' as they were and the output's at `lossBlock` of them. -/
theorem body_triple (c : Dev nD) (E : Set ℕ) (i : grid0.Coords)
    (arg1 : Memref sig .tc .vmem S8192x63 .f32) (harg1 : arg1.IsWhole)
    (arg2 : Memref sig .tc .vmem S8192x63 .f32) (harg2 : arg2.IsWhole)
    (arg3 : Memref sig .tc .vmem S63x60 .bf16) (harg3 : arg3.IsWhole)
    (arg4 : Memref sig .tc .vmem S8192 .f32) (harg4 : arg4.IsWhole)
    (x y : Vec F S8192x63 .f32) (s : Vec F S63x60 .bf16) (K : PUnit → sProp 𝕄) :
    iprop(owns (c : Thread nD τ) arg1 fullShare x ∗ owns (c : Thread nD τ) arg2 fullShare y
        ∗ owns (c : Thread nD τ) arg3 fullShare s ∗ (∃ d, owns (c : Thread nD τ) arg4 fullShare d)
        ∗ (iprop(owns (c : Thread nD τ) arg1 fullShare x ∗ owns (c : Thread nD τ) arg2 fullShare y
            ∗ owns (c : Thread nD τ) arg3 fullShare s ∗ owns (c : Thread nD τ) arg4 fullShare (lossBlock x y s)) -∗ K ⟨⟩))
      ⊢ wp frame (wpE (defs₀ (F := F)) Variants.none c none) E (cc0__bone_loss_kernel i arg1 harg1 arg2 harg2 arg3 harg3 arg4 harg4) K := by
  simp only [cc0__bone_loss_kernel_eq_skeleton]; unfold cc0__bone_loss_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (lossBlock_cover _)

/-! ## The pipeline's proof data -/

/-- On core `c`: the arrays as the region finds them; after the body at point `t` each input's buffer at its
    block and the output's at `lossBlock` of the three; the invariant is the scoped rest and the generator
    register, which the body does not touch; nothing is owed and every share is whole. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => lossBlock (blockAt m c 0 t) (blockAt m c 1 t) (blockAt m c 2 t)
  Φ _ := Pipeline.ΦA spec0 c
  q _ := fullShare
  owed _ := 0

theorem dats_A (c : Dev nD) (w : Fin cfg0.W) : (dats m 0 c).A w = entry m c (Pipeline.arrRef spec0 w) := by
  dsimp only [dats]

theorem left0 (c : Dev nD) (t : Fin cfg0.N) : (dats m 0 c).after 0 t = blockAt m c 0 t := by dsimp only [dats]
theorem left1 (c : Dev nD) (t : Fin cfg0.N) : (dats m 0 c).after 1 t = blockAt m c 1 t := by dsimp only [dats]
theorem left2 (c : Dev nD) (t : Fin cfg0.N) : (dats m 0 c).after 2 t = blockAt m c 2 t := by dsimp only [dats]
theorem left3 (c : Dev nD) (t : Fin cfg0.N) :
    (dats m 0 c).after 3 t = lossBlock (blockAt m c 0 t) (blockAt m c 1 t) (blockAt m c 2 t) := by dsimp only [dats]

theorem held0 (c : Dev nD) (t : Fin cfg0.N) (d) : (dats m 0 c).before 0 t d = blockAt m c 0 t :=
  found0 m (dats m 0 c) (dats_A m c 0) (left0 m c) t d
theorem held1 (c : Dev nD) (t : Fin cfg0.N) (d) : (dats m 0 c).before 1 t d = blockAt m c 1 t :=
  found1 m (dats m 0 c) (dats_A m c 1) (left1 m c) t d
theorem held2 (c : Dev nD) (t : Fin cfg0.N) (d) : (dats m 0 c).before 2 t d = blockAt m c 2 t :=
  found2 m (dats m 0 c) (dats_A m c 2) (left2 m c) t d

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- At any point the inputs' buffers hold their blocks, so the body's triple applies; the invariant and what the
    core owes pass through untouched. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2]
  rw [show (dats m 0 c).Φ t.succ = (dats m 0 c).Φ t.castSucc from rfl,
    show (dats m 0 c).owesAt () t.succ = (dats m 0 c).owesAt () t.castSucc from rfl,
    left0, left1, left2, left3]
  iintro ⟨HΦ, Ho, ⟨%d0, H0⟩, ⟨%d1, H1⟩, ⟨%d2, H2⟩, ⟨%d3, H3⟩⟩
  iapply (body_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- From any memory with zero counters every weakly fair execution of @main terminates without a fault; at the end
    each of the pipeline's arrays holds what the proof data says and every other unscoped buffer what it held when
    the region was entered. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_upto m Variants.none) (hA := dats_A m) (hΦ := fun _ _ => rfl)

/-- The same run with the result array named and the three arguments as launched: no argument is an array of the
    pipeline, and no host operation writes one. -/
theorem run_named : θ_run defs (onTc (τ := τ) (main (F := F))) ⟨m, fun _ => 0, ρ⟩ (fun r => ∀ c : Dev nD,
      r.2.mem ((c.tc : Thread nD τ).loc main_v53) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 3,
      ((h c).2 main_arg0 (Pipeline.mem_restRefs_of main_arg0 (by decide) (by decide))).trans (entry_arg0 m c),
      ((h c).2 main_arg1 (Pipeline.mem_restRefs_of main_arg1 (by decide) (by decide))).trans (entry_arg1 m c),
      ((h c).2 main_arg2 (Pipeline.mem_restRefs_of main_arg2 (by decide) (by decide))).trans (entry_arg2 m c)⟩) (run_main m ρ)

/-- THE FRAME: the program runs to the end, faults nowhere, and leaves its three arguments as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

/-- What point `t` writes back of the result: the body's block, whole. -/
theorem flushed3 (c : Dev nD) (t : Fin cfg0.N) :
    (dats m 0 c).flushed 3 t = lossBlock (blockAt m c 0 t) (blockAt m c 1 t) (blockAt m c 2 t) := by
  show (cfg0.win 3).cut (grid0.coords t) ((dats m 0 c).after 3 t) = _
  rw [left3]
  rfl

end Cert.Kernel.Fr

end
-- ==== Proof.FrameI.lean ====
/-
  The frame of the idealized bone-length-loss program, read at any float instance.

  @main is twelve stretches of host operations (the clipped skeleton, six one-hot tables, their
  differences transposed and laid side by side into the 63 x 60 selection matrix, its change of
  format, and the two coordinate arrays re-laid as 1048576 x 63) followed by one region over a grid of
  128 points. No host operation writes an argument array, so the region finds the three arguments as
  launched. At a point the body reads its three input blocks whole (two 8192 x 63 coordinate blocks
  and the selection matrix, which is fetched once and never moves) and overwrites its 8192-entry
  output block with one value computed from them; the inputs' staging buffers are left as found.
  From that: what every staging buffer holds after the body at every point, the body's triple, the
  pipeline's run, and the frame — every weakly fair execution ends, faults nowhere, and the argument
  arrays end as they began — together with the output array named block by block.
-/
import proofs.«408830_j24043226923676_3_alg».proof.Proof.Gen.KernelIdeal.Launch
import proofs.«408830_j24043226923676_3_alg».proof.Proof.Gen.KernelIdeal.Skeleton
import proofs.«408830_j24043226923676_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The host operations before the region, stretch by stretch, in program order. -/
abbrev stretches : List (List (HloOp τ sig (Elt F))) :=
  [hostOps0, hostOps0_1, hostOps0_2, hostOps0_3, hostOps0_4, hostOps0_5, hostOps0_6, hostOps0_7, hostOps0_8,
    hostOps0_9, hostOps0_10, hostOps0_11]

/-- What core `c`'s buffers hold when the region is entered: the launch memory after every host operation. -/
abbrev entry (c : Dev nD) (b : Ref sig .tc) : Buf (Elt F) ((c : Thread nD τ).loc b) :=
  StableHlo.after (List.flatten stretches) (fun b => m (c, b)) b

/-- No host operation allocates. -/
theorem stretches_fresh : (stretches : List (List (HloOp τ sig (Elt F)))).Forall fun ops => ops.Forall fun op => op.fresh = ∅ := by
  simp only [List.Forall]; repeat' constructor

/-- Every host operation touches TensorCore buffers only. -/
theorem stretches_sub : (stretches : List (List (HloOp τ sig (Elt F)))).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub,
    hostOps0_7_sub, hostOps0_8_sub, hostOps0_9_sub, hostOps0_10_sub, hostOps0_11_sub⟩

/-- @main is its host operations, then the region. -/
theorem main_upto (𝒱₀ : Variants) : Pipeline.HMain (Ix := Unit) (Name := ℕ) (U := UR sig nD τ) (Lvl := ℕ) cfgs 0 defs₀ 𝒱₀ m (main (F := F)) (entry m) :=
  Pipeline.hmain_prefixes cfgs 0 defs₀ 𝒱₀ m main stretches stretches_sub stretches_fresh main_chain

/-- A buffer that is none of the host operations' results is found as launched. -/
theorem entry_of_unwritten (c : Dev nD) (b : Ref sig .tc)
    (hb : ∀ op ∈ List.flatten (stretches : List (List (HloOp τ sig (Elt F)))), Proc.devRef .tc b ∉ op.writes) :
    entry m c b = m ((c : Thread nD τ).loc b) :=
  StableHlo.after_of_forall_not_mem (b := Proc.devRef .tc b) _ _ hb

/-- The first coordinate array is no host operation's result. -/
theorem entry_arg0 (c : Dev nD) : entry m c main_arg0 = m ((c : Thread nD τ).loc main_arg0) :=
  entry_of_unwritten m c main_arg0 (List.forall_iff_forall_mem.mp (by
    simp only [stretches, hostOps0, hostOps0_1, hostOps0_2, hostOps0_3, hostOps0_4, hostOps0_5, hostOps0_6, hostOps0_7,
      hostOps0_8, hostOps0_9, hostOps0_10, hostOps0_11, List.flatten_cons, List.flatten_nil, List.append_nil,
      List.cons_append, List.nil_append, List.Forall, StableHlo.nullary_writes, StableHlo.unary_writes,
      StableHlo.binary_writes, StableHlo.reshape_writes, StableHlo.nary_writes, Finset.mem_singleton]
    repeat' apply And.intro
    all_goals exact StableHlo.devRef_ne_of_ne (by decide)))

/-- Nor is the second. -/
theorem entry_arg1 (c : Dev nD) : entry m c main_arg1 = m ((c : Thread nD τ).loc main_arg1) :=
  entry_of_unwritten m c main_arg1 (List.forall_iff_forall_mem.mp (by
    simp only [stretches, hostOps0, hostOps0_1, hostOps0_2, hostOps0_3, hostOps0_4, hostOps0_5, hostOps0_6, hostOps0_7,
      hostOps0_8, hostOps0_9, hostOps0_10, hostOps0_11, List.flatten_cons, List.flatten_nil, List.append_nil,
      List.cons_append, List.nil_append, List.Forall, StableHlo.nullary_writes, StableHlo.unary_writes,
      StableHlo.binary_writes, StableHlo.reshape_writes, StableHlo.nary_writes, Finset.mem_singleton]
    repeat' apply And.intro
    all_goals exact StableHlo.devRef_ne_of_ne (by decide)))

/-- Nor the skeleton table. -/
theorem entry_arg2 (c : Dev nD) : entry m c main_arg2 = m ((c : Thread nD τ).loc main_arg2) :=
  entry_of_unwritten m c main_arg2 (List.forall_iff_forall_mem.mp (by
    simp only [stretches, hostOps0, hostOps0_1, hostOps0_2, hostOps0_3, hostOps0_4, hostOps0_5, hostOps0_6, hostOps0_7,
      hostOps0_8, hostOps0_9, hostOps0_10, hostOps0_11, List.flatten_cons, List.flatten_nil, List.append_nil,
      List.cons_append, List.nil_append, List.Forall, StableHlo.nullary_writes, StableHlo.unary_writes,
      StableHlo.binary_writes, StableHlo.reshape_writes, StableHlo.nary_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- An input window's staging buffer holds the window's block at every point, whether the point fetched it or the
    block index stood still (the selection matrix is fetched once and its index never moves): for any proof data
    over the entry contents whose body leaves input blocks in place. The first coordinate window: -/
theorem found0 {c : Dev nD} (dat : Dat τ (Elt F) Unit ℕ (UR sig nD τ) ℕ cfg0 c)
    (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- the second coordinate window: -/
theorem found1 {c : Dev nD} (dat : Dat τ (Elt F) Unit ℕ (UR sig nD τ) ℕ cfg0 c)
    (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- the selection matrix's window: -/
theorem found2 {c : Dev nD} (dat : Dat τ (Elt F) Unit ℕ (UR sig nD τ) ℕ cfg0 c)
    (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The body -/

/-- The whole of a coordinate block, of the selection matrix, of the output block. -/
abbrev wholeXY : Rect S8192x63 := Rect.unit (s := S8192x63) ![0, 0] S8192x63.size inb_S8192x63_S8192x63_0_0
abbrev wholeSel : Rect S63x60 := Rect.unit (s := S63x60) ![0, 0] S63x60.size inb_S63x60_S63x60_0_0
abbrev wholeOut : Rect S8192 := Rect.unit (s := S8192) ![0] S8192.size inb_S8192_S8192_0

/-- What the body leaves in the output block's buffer, from the three input blocks: its one store. -/
def lossBlock (x y : Vec F S8192x63 .f32) (s : Vec F S63x60 .bf16) : Vec F S8192 .f32 :=
  View.canon [⟨wholeOut, k0_pay1 (View.ld x wholeXY) (View.ld y wholeXY) (View.ld s wholeSel)⟩]

/-- The store is of the whole buffer. -/
theorem lossBlock_cover (p : Vec F S8192 .f32) (j : S8192.Idx) :
    ∃ pc ∈ ([⟨wholeOut, p⟩] : List (View.Piece (Elt F) S8192 .f32)), j ∈ pc.1.set :=
  View.cover_of_tiled [⟨wholeOut, p⟩] S8192.size (by rfl) j

set_option maxHeartbeats 1000000 in
/-- The body on whole staging buffers — the inputs' at known contents, the output's at anything — runs to its
    continuation with the inputs' as they were and the output's at `lossBlock` of them. -/
theorem body_triple (c : Dev nD) (E : Set ℕ) (i : grid0.Coords)
    (arg1 : Memref sig .tc .vmem S8192x63 .f32) (harg1 : arg1.IsWhole)
    (arg2 : Memref sig .tc .vmem S8192x63 .f32) (harg2 : arg2.IsWhole)
    (arg3 : Memref sig .tc .vmem S63x60 .bf16) (harg3 : arg3.IsWhole)
    (arg4 : Memref sig .tc .vmem S8192 .f32) (harg4 : arg4.IsWhole)
    (x y : Vec F S8192x63 .f32) (s : Vec F S63x60 .bf16) (K : PUnit → sProp 𝕄) :
    iprop(owns (c : Thread nD τ) arg1 fullShare x ∗ owns (c : Thread nD τ) arg2 fullShare y
        ∗ owns (c : Thread nD τ) arg3 fullShare s ∗ (∃ d, owns (c : Thread nD τ) arg4 fullShare d)
        ∗ (iprop(owns (c : Thread nD τ) arg1 fullShare x ∗ owns (c : Thread nD τ) arg2 fullShare y
            ∗ owns (c : Thread nD τ) arg3 fullShare s ∗ owns (c : Thread nD τ) arg4 fullShare (lossBlock x y s)) -∗ K ⟨⟩))
      ⊢ wp frame (wpE (defs₀ (F := F)) Variants.none c none) E (cc0__bone_loss_kernel i arg1 harg1 arg2 harg2 arg3 harg3 arg4 harg4) K := by
  simp only [cc0__bone_loss_kernel_eq_skeleton]; unfold cc0__bone_loss_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (lossBlock_cover _)

/-! ## The pipeline's proof data -/

/-- On core `c`: the arrays as the region finds them; after the body at point `t` each input's buffer at its
    block and the output's at `lossBlock` of the three; the invariant is the scoped rest and the generator
    register, which the body does not touch; nothing is owed and every share is whole. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => lossBlock (blockAt m c 0 t) (blockAt m c 1 t) (blockAt m c 2 t)
  Φ _ := Pipeline.ΦA spec0 c
  q _ := fullShare
  owed _ := 0

theorem dats_A (c : Dev nD) (w : Fin cfg0.W) : (dats m 0 c).A w = entry m c (Pipeline.arrRef spec0 w) := by
  dsimp only [dats]

theorem left0 (c : Dev nD) (t : Fin cfg0.N) : (dats m 0 c).after 0 t = blockAt m c 0 t := by dsimp only [dats]
theorem left1 (c : Dev nD) (t : Fin cfg0.N) : (dats m 0 c).after 1 t = blockAt m c 1 t := by dsimp only [dats]
theorem left2 (c : Dev nD) (t : Fin cfg0.N) : (dats m 0 c).after 2 t = blockAt m c 2 t := by dsimp only [dats]
theorem left3 (c : Dev nD) (t : Fin cfg0.N) :
    (dats m 0 c).after 3 t = lossBlock (blockAt m c 0 t) (blockAt m c 1 t) (blockAt m c 2 t) := by dsimp only [dats]

theorem held0 (c : Dev nD) (t : Fin cfg0.N) (d) : (dats m 0 c).before 0 t d = blockAt m c 0 t :=
  found0 m (dats m 0 c) (dats_A m c 0) (left0 m c) t d
theorem held1 (c : Dev nD) (t : Fin cfg0.N) (d) : (dats m 0 c).before 1 t d = blockAt m c 1 t :=
  found1 m (dats m 0 c) (dats_A m c 1) (left1 m c) t d
theorem held2 (c : Dev nD) (t : Fin cfg0.N) (d) : (dats m 0 c).before 2 t d = blockAt m c 2 t :=
  found2 m (dats m 0 c) (dats_A m c 2) (left2 m c) t d

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- At any point the inputs' buffers hold their blocks, so the body's triple applies; the invariant and what the
    core owes pass through untouched. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held0, held1, held2]
  rw [show (dats m 0 c).Φ t.succ = (dats m 0 c).Φ t.castSucc from rfl,
    show (dats m 0 c).owesAt () t.succ = (dats m 0 c).owesAt () t.castSucc from rfl,
    left0, left1, left2, left3]
  iintro ⟨HΦ, Ho, ⟨%d0, H0⟩, ⟨%d1, H1⟩, ⟨%d2, H2⟩, ⟨%d3, H3⟩⟩
  iapply (body_triple c Set.univ (grid0.coords t) _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation (c : Dev nD) : BodyObligation (dats (F := F) m 0 c) (defs₀ (F := F)) Variants.none () Set.univ := fun t => by
  rw [bigSep_W0, bigSep_W0]
  exact body_at m c t

/-! ## The run -/

set_option backward.isDefEq.respectTransparency.types false in
/-- From any memory with zero counters every weakly fair execution of @main terminates without a fault; at the end
    each of the pipeline's arrays holds what the proof data says and every other unscoped buffer what it held when
    the region was entered. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := main_upto m Variants.none) (hA := dats_A m) (hΦ := fun _ _ => rfl)

/-- The same run with the result array named and the three arguments as launched: no argument is an array of the
    pipeline, and no host operation writes one. -/
theorem run_named : θ_run defs (onTc (τ := τ) (main (F := F))) ⟨m, fun _ => 0, ρ⟩ (fun r => ∀ c : Dev nD,
      r.2.mem ((c.tc : Thread nD τ).loc main_v53) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1 3,
      ((h c).2 main_arg0 (Pipeline.mem_restRefs_of main_arg0 (by decide) (by decide))).trans (entry_arg0 m c),
      ((h c).2 main_arg1 (Pipeline.mem_restRefs_of main_arg1 (by decide) (by decide))).trans (entry_arg1 m c),
      ((h c).2 main_arg2 (Pipeline.mem_restRefs_of main_arg2 (by decide) (by decide))).trans (entry_arg2 m c)⟩) (run_main m ρ)

/-- THE FRAME: the program runs to the end, faults nowhere, and leaves its three arguments as it found them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_named m ρ)

/-- What point `t` writes back of the result: the body's block, whole. -/
theorem flushed3 (c : Dev nD) (t : Fin cfg0.N) :
    (dats m 0 c).flushed 3 t = lossBlock (blockAt m c 0 t) (blockAt m c 1 t) (blockAt m c 2 t) := by
  show (cfg0.win 3).cut (grid0.coords t) ((dats m 0 c).after 3 t) = _
  rw [left3]
  rfl

end Cert.KernelIdeal.Fr

end
-- ==== Proof.Spec.lean ====
/-
  The bone-length loss as one function of the argument arrays, and the one law the kernel's arrangement needs.

  For a batch row `b`, a bone `k` joins the joints `p = skeleton[k, 0]` and `q = skeleton[k, 1]`; its squared length
  in an array `x` of joint coordinates is the sum over the three axes of `(x[b, p, d] - x[b, q, d])²`, and the loss of
  the row is the sum over the twenty bones of `(√(squared length in the output) - √(squared length in the truth))²`.
  A skeleton entry is read as a joint number by its word's value (reduced into `0 … 20`, which changes nothing for an
  entry already there).

  The law: a row of finite numbers summed against the difference of two indicator columns is the difference of the
  two entries the columns mark — how a product with a matrix of `+1` / `-1` entries takes differences of coordinates.
  It needs finiteness: when the two columns coincide the left side is `0`, and `x - x` is `0` only for a finite `x`.
-/
import Idealize.ShloMosaic.PureOps.Ideal
import Idealize.ShloMosaic.Lib.ValueIdx

noncomputable section

namespace Cert.BoneSpec

open Idealize.ShloMosaic Idealize.ShloMosaic.ValueIdx

abbrev SJoints : Shape := ⟨3, ![1048576, 21, 3]⟩
abbrev SBones : Shape := ⟨2, ![20, 2]⟩
abbrev SRows : Shape := ⟨1, ![1048576]⟩

/-- The joint that end `e` of bone `k` names. -/
def joint (sk : IVec SBones 32) (k : Fin 20) (e : Fin 2) : Fin 21 :=
  ⟨(sk (ix2 k e)).toNat % 21, Nat.mod_lt _ (by decide)⟩

/-- For an entry in range the reduction is the identity. -/
theorem joint_val (sk : IVec SBones 32) (hsk : ∀ i, (sk i).toNat < 21) (k : Fin 20) (e : Fin 2) :
    (joint sk k e).val = (sk (ix2 k e)).toNat :=
  Nat.mod_eq_of_lt (hsk _)

/-- Among a row's 63 flattened coordinates, axis `d` of joint `p` sits at column `3·p + d`. -/
def flat (p : Fin 21) (d : Fin 3) : Fin 63 := ⟨3 * p.val + d.val, by have := p.isLt; have := d.isLt; omega⟩

/-- Among the 60 selection columns, bone `k` on axis `d` is column `d·20 + k`. -/
def col (d : Fin 3) (k : Fin 20) : Fin 60 := ⟨d.val * 20 + k.val, by have := d.isLt; have := k.isLt; omega⟩

/-- The squared length, in row `b` of `x`, of the segment from joint `p` to joint `q`. -/
def sqLen (x : FVec Ideal SJoints .f32) (b : Fin 1048576) (p q : Fin 21) : EReal :=
  ∑ d : Fin 3, (x (ix3 b p d) - x (ix3 b q d)) * (x (ix3 b p d) - x (ix3 b q d))

/-- The loss of row `b`: over the bones, the squared difference of the two lengths. -/
def lossRow (o g : FVec Ideal SJoints .f32) (sk : IVec SBones 32) (b : Fin 1048576) : EReal :=
  ∑ k : Fin 20,
    (Ideal.sqrt (sqLen o b (joint sk k 0) (joint sk k 1)) - Ideal.sqrt (sqLen g b (joint sk k 0) (joint sk k 1)))
      * (Ideal.sqrt (sqLen o b (joint sk k 0) (joint sk k 1)) - Ideal.sqrt (sqLen g b (joint sk k 0) (joint sk k 1)))

/-- The result array. -/
def loss (o g : FVec Ideal SJoints .f32) (sk : IVec SBones 32) : FVec Ideal SRows .f32 :=
  fun i => lossRow o g sk ⟨(i 0).val, (i 0).isLt⟩

/-- Coercion of a finite sum of reals. -/
theorem coe_sum {ι : Type*} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- THE SELECTION LAW. -/
theorem sum_mul_indicator_sub {n : Nat} (x : Fin n → EReal) (hx : ∀ j, ∃ r : ℝ, x j = (r : EReal)) (p q : Fin n) :
    ∑ j : Fin n, x j * ((if j = p then (1 : EReal) else 0) - (if j = q then (1 : EReal) else 0)) = x p - x q := by
  choose r hr using hx
  have hterm : ∀ j : Fin n, x j * ((if j = p then (1 : EReal) else 0) - (if j = q then (1 : EReal) else 0))
      = ((r j * ((if j = p then (1 : ℝ) else 0) - (if j = q then (1 : ℝ) else 0)) : ℝ) : EReal) := by
    intro j
    have hite : ∀ (c : Prop) [Decidable c], (if c then (1 : EReal) else 0) = (((if c then (1 : ℝ) else 0) : ℝ) : EReal) := by
      intro c _; split <;> simp
    rw [hr j, hite, hite, ← EReal.coe_sub, ← EReal.coe_mul]
  rw [Finset.sum_congr rfl fun j _ => hterm j, ← coe_sum, hr p, hr q, ← EReal.coe_sub]
  congr 1
  simp only [mul_sub, Finset.sum_sub_distrib, mul_ite, mul_one, mul_zero, Finset.sum_ite_eq', Finset.mem_univ, if_true]

end Cert.BoneSpec

end
-- ==== Proof.BlockValue.lean ====
/-
  What the body of the bone-length kernel computes, read at an index of its output block, at the ideal instance.

  The body multiplies each 8192 x 63 block of flattened joint coordinates by the 63 x 60 selection matrix, so entry
  (r, c) of a product is the sum over the 63 columns j of x[r, j] · s[j, c]. It then takes the three 20-column slices
  of each product (one per coordinate axis), squares and adds them into a zero, takes square roots, subtracts the two
  blocks' results, squares, and sums over the 20 bones. Changes of float format and the casts of a block to its own
  shape do nothing at this instance.
-/
import proofs.«408830_j24043226923676_3_alg».proof.Proof.FrameI
import proofs.«408830_j24043226923676_3_alg».proof.Proof.Spec
import Idealize.ShloMosaic.PureOps.Ideal.Laws
import Idealize.ShloMosaic.Lib.ValueIdx
import Idealize.ShloMosaic.Lib.Pipeline.Value

set_option maxRecDepth 16384

noncomputable section

namespace Cert.KernelIdeal.Val

open Cert.KernelIdeal Cert.KernelIdeal.Gen Idealize.ShloMosaic Idealize.ShloMosaic.ValueIdx Cert.BoneSpec

/-- The block product's dimension numbers: rows of the left against columns of the right, one contracted axis. -/
abbrev DD : DotDims S8192x63 S63x60 S8192x60 := dot_S8192x63_S63x60_S8192x60_1_0_0_1_n_n

/-! ## The operand indices of the product, axis by axis -/

theorem lhs_row (j : S8192x60.Idx) (k : DD.contr.Idx) : (DD.lhsIdx j k 0).val = (j 0).val := by
  unfold DotDims.lhsIdx
  rw [dif_neg (show ¬(0 : Fin S8192x63.rank) ∈ DD.lhsBatch by decide),
    dif_pos (show (0 : Fin S8192x63.rank) ∈ DD.lhsNonContracting by decide)]
  rfl

theorem lhs_col (j : S8192x60.Idx) (k : DD.contr.Idx) : (DD.lhsIdx j k 1).val = (k ⟨0, by decide⟩).val :=
  DD.lhsIdx_val_of_single (cl := 1) rfl j k

theorem rhs_row (j : S8192x60.Idx) (k : DD.contr.Idx) : (DD.rhsIdx j k 0).val = (k ⟨0, by decide⟩).val :=
  DD.rhsIdx_val_of_single (cr := 0) rfl j k

theorem rhs_col (j : S8192x60.Idx) (k : DD.contr.Idx) : (DD.rhsIdx j k 1).val = (j 1).val := by
  unfold DotDims.rhsIdx
  rw [dif_neg (show ¬(1 : Fin S63x60.rank) ∈ DD.rhsBatch by decide),
    dif_pos (show (1 : Fin S63x60.rank) ∈ DD.rhsNonContracting by decide)]
  rfl

/-- Entry (r, c) of a block product into a zero block: the row of the left against the column of the right. -/
theorem matmul_at (x : FVec Ideal S8192x63 .bf16) (s : FVec Ideal S63x60 .bf16) (r : Fin 8192) (c : Fin 60) :
    (matmul DD none x s (constant (F := Ideal) S8192x60 .f32 0x00000000#32) : FVec Ideal S8192x60 .f32) (ix2 r c)
      = ∑ j : Fin 63, x (ix2 r j) * s (ix2 j c) := by
  refine (Ideal.matmul_constant_zero_apply DD none x s (ix2 r c)).trans ?_
  rw [← Equiv.sum_comp (contrEquiv1 DD 63 rfl rfl).symm]
  refine Finset.sum_congr rfl fun j _ => ?_
  have hk : (((contrEquiv1 DD 63 rfl rfl).symm j) ⟨0, by decide⟩ : ℕ) = j.val := contrEquiv1_symm_val DD 63 rfl rfl j
  congr 1
  · exact congrArg x (funext fun a => Fin.ext (by
      match a with
      | ⟨0, _⟩ => exact lhs_row _ _
      | ⟨1, _⟩ => exact (lhs_col _ _).trans hk))
  · exact congrArg s (funext fun a => Fin.ext (by
      match a with
      | ⟨0, _⟩ => exact (rhs_row _ _).trans hk
      | ⟨1, _⟩ => exact rhs_col _ _))

/-! ## The three slices of a product -/

theorem slice_ax0 (v : FVec Ideal S8192x60 .f32) (r : Fin 8192) (k : Fin 20) :
    extractStridedSlice S8192x20 ![0, 0] v slices_S8192x60_o0_0_S8192x20 (ix2 r k) = v (ix2 r (col 0 k)) :=
  extractStridedSlice_apply ![0, 0] v slices_S8192x60_o0_0_S8192x20 (ix2 r k) (ix2 r (col 0 k)) (fun a => match a with
    | ⟨0, _⟩ => by show r.val = 0 + r.val; omega
    | ⟨1, _⟩ => by show 0 * 20 + k.val = 0 + k.val; omega)

theorem slice_ax1 (v : FVec Ideal S8192x60 .f32) (r : Fin 8192) (k : Fin 20) :
    extractStridedSlice S8192x20 ![0, 20] v slices_S8192x60_o0_20_S8192x20 (ix2 r k) = v (ix2 r (col 1 k)) :=
  extractStridedSlice_apply ![0, 20] v slices_S8192x60_o0_20_S8192x20 (ix2 r k) (ix2 r (col 1 k)) (fun a => match a with
    | ⟨0, _⟩ => by show r.val = 0 + r.val; omega
    | ⟨1, _⟩ => by show 1 * 20 + k.val = 20 + k.val; omega)

theorem slice_ax2 (v : FVec Ideal S8192x60 .f32) (r : Fin 8192) (k : Fin 20) :
    extractStridedSlice S8192x20 ![0, 40] v slices_S8192x60_o0_40_S8192x20 (ix2 r k) = v (ix2 r (col 2 k)) :=
  extractStridedSlice_apply ![0, 40] v slices_S8192x60_o0_40_S8192x20 (ix2 r k) (ix2 r (col 2 k)) (fun a => match a with
    | ⟨0, _⟩ => by show r.val = 0 + r.val; omega
    | ⟨1, _⟩ => by show 2 * 20 + k.val = 40 + k.val; omega)

/-! ## The payload at a row -/

/-- Row `r` of a coordinate block against column `c` of the selection matrix. -/
def rowDot (x : FVec Ideal S8192x63 .f32) (s : FVec Ideal S63x60 .bf16) (r : Fin 8192) (c : Fin 60) : EReal :=
  ∑ j : Fin 63, x (ix2 r j) * s (ix2 j c)

/-- The three axes' squares added into a zero, for bone `k`. -/
def sqSum (x : FVec Ideal S8192x63 .f32) (s : FVec Ideal S63x60 .bf16) (r : Fin 8192) (k : Fin 20) : EReal :=
  Ideal.ofBits .f32 0x00000000#32 + rowDot x s r (col 0 k) * rowDot x s r (col 0 k)
    + rowDot x s r (col 1 k) * rowDot x s r (col 1 k) + rowDot x s r (col 2 k) * rowDot x s r (col 2 k)

/-- The product the body forms from a coordinate block, at (r, c). -/
theorem product_at (x : FVec Ideal S8192x63 .f32) (s : FVec Ideal S63x60 .bf16) (r : Fin 8192) (c : Fin 60) :
    (matmul DD none (truncf .bf16 (shapeCast S8192x63 x shapeCasts_S8192x63_S8192x63) bitsLt_bf16_f32)
        (shapeCast S63x60 s shapeCasts_S63x60_S63x60) (constant (F := Ideal) S8192x60 .f32 0x00000000#32)
      : FVec Ideal S8192x60 .f32) (ix2 r c) = rowDot x s r c := by
  rw [shapeCast_self, shapeCast_self]
  exact matmul_at _ _ r c

/-- The product the body forms from a coordinate block. -/
abbrev prod (x : FVec Ideal S8192x63 .f32) (s : FVec Ideal S63x60 .bf16) : FVec Ideal S8192x60 .f32 :=
  matmul DD none (truncf .bf16 (shapeCast S8192x63 x shapeCasts_S8192x63_S8192x63) bitsLt_bf16_f32)
    (shapeCast S63x60 s shapeCasts_S63x60_S63x60) (constant (F := Ideal) S8192x60 .f32 0x00000000#32)

/-- The three slices' squares added into the zero block, at (r, k). -/
theorem sq_at (x : FVec Ideal S8192x63 .f32) (s : FVec Ideal S63x60 .bf16) (r : Fin 8192) (k : Fin 20) :
    (addf (addf (addf (broadcast S8192x20 (FloatOps.ofBits (F := Ideal) .f32 0x00000000#32))
            (mulf (extractStridedSlice S8192x20 ![0, 0] (prod x s) slices_S8192x60_o0_0_S8192x20)
              (extractStridedSlice S8192x20 ![0, 0] (prod x s) slices_S8192x60_o0_0_S8192x20)))
          (mulf (extractStridedSlice S8192x20 ![0, 20] (prod x s) slices_S8192x60_o0_20_S8192x20)
            (extractStridedSlice S8192x20 ![0, 20] (prod x s) slices_S8192x60_o0_20_S8192x20)))
        (mulf (extractStridedSlice S8192x20 ![0, 40] (prod x s) slices_S8192x60_o0_40_S8192x20)
          (extractStridedSlice S8192x20 ![0, 40] (prod x s) slices_S8192x60_o0_40_S8192x20))
      : FVec Ideal S8192x20 .f32) (ix2 r k) = sqSum x s r k := by
  simp only [addf_apply, mulf_apply, broadcast_apply, slice_ax0, slice_ax1, slice_ax2, product_at]
  rfl

/-- THE PAYLOAD AT ROW `r`: over the bones, the squared difference of the two blocks' root sums. -/
theorem pay_at (x y : FVec Ideal S8192x63 .f32) (s : FVec Ideal S63x60 .bf16) (r : Fin 8192) :
    (k0_pay1 (F := Ideal) x y s) (ix1 r)
      = ∑ k : Fin 20, (Ideal.sqrt (sqSum x s r k) - Ideal.sqrt (sqSum y s r k))
          * (Ideal.sqrt (sqSum x s r k) - Ideal.sqrt (sqSum y s r k)) := by
  unfold k0_pay1
  dsimp only
  refine (Ideal.multiReduction_add_single _ 0x00000000#32 reduces_S8192x20_S8192 (.inl rfl) rfl (ix1 r)).trans ?_
  refine Finset.sum_congr rfl fun k _ => ?_
  have hidx : reduces_S8192x20_S8192.lift (ix1 r) k = ix2 r k :=
    funext fun a => Fin.ext (by match a with | ⟨0, _⟩ => rfl | ⟨1, _⟩ => rfl)
  rw [hidx]
  have hA := sq_at x s r k
  have hB := sq_at y s r k
  have key : ∀ a a' b b' : EReal, a = a' → b = b' →
      (Ideal.sqrt a - Ideal.sqrt b) * (Ideal.sqrt a - Ideal.sqrt b) = (Ideal.sqrt a' - Ideal.sqrt b') * (Ideal.sqrt a' - Ideal.sqrt b') := by
    intro a a' b b' h1 h2; rw [h1, h2]
  exact key _ _ _ _ hA hB

/-! ## The body's block is the payload of the blocks -/

theorem zeros1 : (![0] : Fin 1 → Nat) = fun _ => 0 := funext fun a => by fin_cases a <;> rfl
theorem zeros2 : (![0, 0] : Fin 2 → Nat) = fun _ => 0 := funext fun a => by fin_cases a <;> rfl

/-- The one store covers the buffer, and each load reads a whole block: what the body leaves is the payload of the
    three blocks themselves. -/
theorem lossBlock_eq (x y : Vec Ideal S8192x63 .f32) (s : Vec Ideal S63x60 .bf16) :
    Fr.lossBlock (F := Ideal) x y s = k0_pay1 (F := Ideal) x y s := by
  unfold Fr.lossBlock
  rw [View.canon_unit_zero zeros1]
  simp only [View.ld_unit_zero (S := S8192x63) zeros2, View.ld_unit_zero (S := S63x60) zeros2]

end Cert.KernelIdeal.Val

end
-- ==== Proof.ArrayValue.lean ====
/-
  The result array of the bone-length kernel is the specification function of the argument arrays.

  Point `t` of the grid handles rows `t·8192 … t·8192 + 8191`: its two coordinate blocks are those rows of the re-laid
  arrays, the selection matrix is read whole at every point, and the block it writes back is those rows of the
  result. A row of a coordinate block summed against selection column (d, k) is, by the selection law, the difference
  of the two joints' coordinates on axis d — this is where finiteness of the inputs is used, and where the skeleton
  entries' range makes the matrix's +1 / -1 entries sit at the joints the reference reads. The three axes' squares
  added into a zero are then the bone's squared length. The 128 blocks tile the 1048576 rows.
-/
import proofs.«408830_j24043226923676_3_alg».proof.Proof.BlockValue

set_option maxRecDepth 16384

noncomputable section

namespace Cert.KernelIdeal.Arr

open Cert.KernelIdeal Cert.KernelIdeal.Gen Idealize.ShloMosaic Idealize.ShloMosaic.ValueIdx Idealize.SL.Sem Cert.BoneSpec
open Cert.KernelIdeal.Val
open Idealize.ShloMosaic.Pipeline (Dat)

/-! ## A row of the result from a row of each block -/

/-- Every flattened column is some joint's coordinate. -/
theorem flat_onto (j : Fin 63) : ∃ (p : Fin 21) (d : Fin 3), j = flat p d :=
  ⟨⟨j.val / 3, by have := j.isLt; omega⟩, ⟨j.val % 3, Nat.mod_lt _ (by decide)⟩, Fin.ext (by
    show j.val = 3 * (j.val / 3) + j.val % 3
    omega)⟩

/-- A coordinate row against selection column (d, k): the difference of bone k's two joints on axis d. -/
theorem rowDot_eq (X : FVec Ideal S8192x63 .f32) (S : FVec Ideal S63x60 .bf16) (x : FVec Ideal SJoints .f32)
    (sk : IVec SBones 32) (r : Fin 8192) (b : Fin 1048576)
    (hS : ∀ (j : Fin 63) (d : Fin 3) (k : Fin 20), S (ix2 j (col d k))
      = (if j = flat (joint sk k 0) d then (1 : EReal) else 0) - (if j = flat (joint sk k 1) d then (1 : EReal) else 0))
    (hX : ∀ (p : Fin 21) (d : Fin 3), X (ix2 r (flat p d)) = x (ix3 b p d))
    (hx : ∀ i, ∃ v : ℝ, x i = (v : EReal)) (d : Fin 3) (k : Fin 20) :
    rowDot X S r (col d k) = x (ix3 b (joint sk k 0) d) - x (ix3 b (joint sk k 1) d) := by
  unfold rowDot
  rw [Finset.sum_congr rfl fun j _ => by rw [hS j d k]]
  have hfin : ∀ j : Fin 63, ∃ v : ℝ, X (ix2 r j) = (v : EReal) := by
    intro j
    obtain ⟨p, e, rfl⟩ := flat_onto j
    rw [hX]
    exact hx _
  rw [sum_mul_indicator_sub (fun j => X (ix2 r j)) hfin, hX, hX]

/-- The three axes' squares added into the zero: the bone's squared length. -/
theorem sqSum_eq (X : FVec Ideal S8192x63 .f32) (S : FVec Ideal S63x60 .bf16) (x : FVec Ideal SJoints .f32)
    (sk : IVec SBones 32) (r : Fin 8192) (b : Fin 1048576)
    (hS : ∀ (j : Fin 63) (d : Fin 3) (k : Fin 20), S (ix2 j (col d k))
      = (if j = flat (joint sk k 0) d then (1 : EReal) else 0) - (if j = flat (joint sk k 1) d then (1 : EReal) else 0))
    (hX : ∀ (p : Fin 21) (d : Fin 3), X (ix2 r (flat p d)) = x (ix3 b p d))
    (hx : ∀ i, ∃ v : ℝ, x i = (v : EReal)) (k : Fin 20) :
    sqSum X S r k = sqLen x b (joint sk k 0) (joint sk k 1) := by
  unfold sqSum sqLen
  rw [rowDot_eq X S x sk r b hS hX hx 0 k, rowDot_eq X S x sk r b hS hX hx 1 k, rowDot_eq X S x sk r b hS hX hx 2 k,
    Fin.sum_univ_three, Ideal.ofBits_zero_f32, zero_add]

/-- THE ROW: the body's payload at row `r` of blocks that are rows `b` of the re-laid arrays is the loss of row `b`. -/
theorem row_loss (X Y : FVec Ideal S8192x63 .f32) (S : FVec Ideal S63x60 .bf16) (o g : FVec Ideal SJoints .f32)
    (sk : IVec SBones 32) (r : Fin 8192) (b : Fin 1048576)
    (hS : ∀ (j : Fin 63) (d : Fin 3) (k : Fin 20), S (ix2 j (col d k))
      = (if j = flat (joint sk k 0) d then (1 : EReal) else 0) - (if j = flat (joint sk k 1) d then (1 : EReal) else 0))
    (hX : ∀ (p : Fin 21) (d : Fin 3), X (ix2 r (flat p d)) = o (ix3 b p d))
    (hY : ∀ (p : Fin 21) (d : Fin 3), Y (ix2 r (flat p d)) = g (ix3 b p d))
    (ho : ∀ i, ∃ v : ℝ, o i = (v : EReal)) (hg : ∀ i, ∃ v : ℝ, g i = (v : EReal)) :
    (k0_pay1 (F := Ideal) X Y S) (ix1 r) = lossRow o g sk b := by
  refine (pay_at X Y S r).trans ?_
  unfold lossRow
  refine Finset.sum_congr rfl fun k _ => ?_
  rw [sqSum_eq X S o sk r b hS hX ho k, sqSum_eq Y S g sk r b hS hY hg k]

/-! ## The blocks of a point -/

variable (m : (ℓ : Loc nD τ sig) → Buf (Elt Ideal) ℓ)

/-- The printed index maps over the grid: the coordinate windows and the result window move one block of rows per
    point; the selection matrix's window stands still. -/
theorem maps : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = t.val :=
  (by decide +kernel : ∀ t : Fin grid0.N, _)

/-- Row `r` of point `t`'s blocks is row `t·8192 + r` of the arrays. -/
def rowOf (t : Fin cfg0.N) (r : Fin 8192) : Fin 1048576 :=
  ⟨t.val * 8192 + r.val, by
    have h : t.val < 128 := lt_of_lt_of_eq t.isLt N_0
    have := r.isLt
    omega⟩

theorem xblock_at (c : Dev nD) (t : Fin cfg0.N) (r : Fin 8192) (j : Fin 63) :
    Fr.blockAt (F := Ideal) m c 0 t (ix2 r j)
      = (Fr.entry (F := Ideal) m c main_v51 : S1048576x63.Idx → EReal) (ix2 (rowOf t r) j) := by
  obtain ⟨e0, e1, -⟩ := maps t
  show Fr.entry (F := Ideal) m c main_v51 (((cfg0.win 0).blk t).view.emb (ix2 r j)) = _
  refine congrArg _ (funext fun a => Fin.ext ?_)
  match a with
  | ⟨0, _⟩ => show win0_0.index t (0 : Fin 2) * 8192 + 1 * r.val = t.val * 8192 + r.val; omega
  | ⟨1, _⟩ => show win0_0.index t (1 : Fin 2) * 63 + 1 * j.val = j.val; omega

theorem yblock_at (c : Dev nD) (t : Fin cfg0.N) (r : Fin 8192) (j : Fin 63) :
    Fr.blockAt (F := Ideal) m c 1 t (ix2 r j)
      = (Fr.entry (F := Ideal) m c main_v52 : S1048576x63.Idx → EReal) (ix2 (rowOf t r) j) := by
  obtain ⟨-, -, e0, e1, -⟩ := maps t
  show Fr.entry (F := Ideal) m c main_v52 (((cfg0.win 1).blk t).view.emb (ix2 r j)) = _
  refine congrArg _ (funext fun a => Fin.ext ?_)
  match a with
  | ⟨0, _⟩ => show win0_1.index t (0 : Fin 2) * 8192 + 1 * r.val = t.val * 8192 + r.val; omega
  | ⟨1, _⟩ => show win0_1.index t (1 : Fin 2) * 63 + 1 * j.val = j.val; omega

theorem sblock_at (c : Dev nD) (t : Fin cfg0.N) (j : Fin 63) (q : Fin 60) :
    Fr.blockAt (F := Ideal) m c 2 t (ix2 j q)
      = (Fr.entry (F := Ideal) m c main_v50 : S63x60.Idx → EReal) (ix2 j q) := by
  obtain ⟨-, -, -, -, e0, e1, -⟩ := maps t
  show Fr.entry (F := Ideal) m c main_v50 (((cfg0.win 2).blk t).view.emb (ix2 j q)) = _
  refine congrArg _ (funext fun a => Fin.ext ?_)
  match a with
  | ⟨0, _⟩ => show win0_2.index t (0 : Fin 2) * 63 + 1 * j.val = j.val; omega
  | ⟨1, _⟩ => show win0_2.index t (1 : Fin 2) * 60 + 1 * q.val = q.val; omega

/-! ## What a point writes back, and the whole array -/

section Final

variable (c : Dev nD)
  (hsel : ∀ (j : Fin 63) (d : Fin 3) (k : Fin 20),
    (Fr.entry (F := Ideal) m c main_v50 : S63x60.Idx → EReal) (ix2 j (col d k))
      = (if j = flat (joint (m ((c.tc : Thread nD τ).loc main_arg2)) k 0) d then (1 : EReal) else 0)
        - (if j = flat (joint (m ((c.tc : Thread nD τ).loc main_arg2)) k 1) d then (1 : EReal) else 0))
  (hout : ∀ (b : Fin 1048576) (p : Fin 21) (d : Fin 3),
    (Fr.entry (F := Ideal) m c main_v51 : S1048576x63.Idx → EReal) (ix2 b (flat p d))
      = (m ((c.tc : Thread nD τ).loc main_arg0) : S1048576x21x3.Idx → EReal) (ix3 b p d))
  (hgt : ∀ (b : Fin 1048576) (p : Fin 21) (d : Fin 3),
    (Fr.entry (F := Ideal) m c main_v52 : S1048576x63.Idx → EReal) (ix2 b (flat p d))
      = (m ((c.tc : Thread nD τ).loc main_arg1) : S1048576x21x3.Idx → EReal) (ix3 b p d))
  (ho : ∀ i, ∃ v : ℝ, (m ((c.tc : Thread nD τ).loc main_arg0) : S1048576x21x3.Idx → EReal) i = (v : EReal))
  (hg : ∀ i, ∃ v : ℝ, (m ((c.tc : Thread nD τ).loc main_arg1) : S1048576x21x3.Idx → EReal) i = (v : EReal))

/-- The specification at the launch contents of the three arguments. -/
abbrev target : FVec Ideal SRows .f32 :=
  loss (m ((c.tc : Thread nD τ).loc main_arg0)) (m ((c.tc : Thread nD τ).loc main_arg1)) (m ((c.tc : Thread nD τ).loc main_arg2))

include hsel hout hgt ho hg in
/-- WHAT POINT `t` WRITES BACK is block `t` of the specification. -/
theorem flushed_eq (t : Fin cfg0.N) :
    (Fr.dats (F := Ideal) m 0 c).flushed 3 t = ((cfg0.win 3).blk t).view.read (Elt Ideal) (target m c) := by
  rw [Fr.flushed3, lossBlock_eq]
  funext y
  obtain ⟨r, rfl⟩ : ∃ r : Fin 8192, y = ix1 r := ⟨y 0, eq_ix1 y⟩
  refine (row_loss _ _ _ (m ((c.tc : Thread nD τ).loc main_arg0)) (m ((c.tc : Thread nD τ).loc main_arg1))
    (m ((c.tc : Thread nD τ).loc main_arg2)) r (rowOf t r) ?_ ?_ ?_ ho hg).trans ?_
  · intro j d k; rw [sblock_at]; exact hsel j d k
  · intro p d; rw [xblock_at]; exact hout _ p d
  · intro p d; rw [yblock_at]; exact hgt _ p d
  · obtain ⟨-, -, -, -, -, -, e3⟩ := maps t
    show lossRow _ _ _ (rowOf t r) = target m c (((cfg0.win 3).blk t).view.emb (ix1 r))
    show lossRow _ _ _ (rowOf t r) = lossRow _ _ _ ⟨((((cfg0.win 3).blk t).view.emb (ix1 r)) 0).val, _⟩
    refine congrArg (lossRow _ _ _) (Fin.ext ?_)
    show t.val * 8192 + r.val = win0_3.index t (0 : Fin 1) * 8192 + 1 * r.val
    omega

/-- An index of the result is in point `t`'s block iff its row is in the block's range. -/
theorem mem_block (t : Fin cfg0.N) (i : S1048576.Idx) :
    i ∈ ((cfg0.win 3).blk t).view.set ↔ ∀ a : Fin 1, win0_3.index t a * S8192.size a ≤ (i a).val
      ∧ (i a).val < win0_3.index t a * S8192.size a + S8192.size a := by
  show i ∈ ((View.whole main_v53).slice (win0_3.rect t)).set ↔ _
  rw [View.set_slice_whole, Rect.mem_set_unit]
  exact Iff.rfl

/-- Every row is in the block of the point its quotient by 8192 names. -/
theorem covered (i : S1048576.Idx) :
    ∃ t : Fin cfg0.N, (cfg0.win 3).flush t = true ∧ i ∈ ((cfg0.win 3).blk t).view.set := by
  have hi : (i 0).val < 1048576 := (i 0).isLt
  have hN : (i 0).val / 8192 < cfg0.N := lt_of_lt_of_eq (by omega : (i 0).val / 8192 < 128) N_0.symm
  refine ⟨⟨(i 0).val / 8192, hN⟩, flush0_3 _, ?_⟩
  rw [mem_block]
  obtain ⟨-, -, -, -, -, -, e3⟩ := maps ⟨(i 0).val / 8192, hN⟩
  intro a
  match a with
  | ⟨0, _⟩ =>
    show win0_3.index ⟨(i 0).val / 8192, hN⟩ (0 : Fin 1) * 8192 ≤ (i 0).val
      ∧ (i 0).val < win0_3.index ⟨(i 0).val / 8192, hN⟩ (0 : Fin 1) * 8192 + 8192
    have e3' : win0_3.index ⟨(i 0).val / 8192, hN⟩ (0 : Fin 1) = (i 0).val / 8192 := e3
    omega

include hsel hout hgt ho hg in
/-- THE RESULT ARRAY after the run is the specification of the launch contents of the arguments. -/
theorem final : (Fr.dats (F := Ideal) m 0 c).arrAt 3 cfg0.N = target m c :=
  (Fr.dats (F := Ideal) m 0 c).arrAt_eq_of_cover 3 (target m c) (fun t _ => flushed_eq m c hsel hout hgt ho hg t) (covered)

end Final

end Cert.KernelIdeal.Arr

end
-- ==== Proof.HostSide.lean ====
/-
  What the host operations of the bone-length-loss program leave, at the ideal instance, in the three arrays the
  region's input windows stage.

  The skeleton table is clipped entrywise into 0 … 20 as signed words, which changes nothing in a table of joint
  numbers. For each axis d the bones' two joints give two index vectors, thrice the joint plus d (below 63, so the
  32-bit arithmetic does not wrap). Each becomes an indicator table: row k marks column v k, the word compared with the
  column's number and the comparison's bit read as a number. The difference of the two tables, transposed, is the axis'
  63 × 20 block, and the three blocks side by side, in the narrower float format (the identity on extended reals), are
  the 63 × 60 selection matrix: its column d·20 + k holds +1 at row 3·(first joint of bone k) + d and −1 at row
  3·(second joint) + d. The two coordinate arrays are re-laid from 1048576 × 21 × 3 to 1048576 × 63: the row-major
  position of (b, p, d) is that of (b, 3·p + d).

  The operations come in twelve stretches. Each stretch is read once, from arbitrary contents: what it writes as a
  function of what it reads, and that it leaves every other buffer alone. The contents the region finds are the twelve
  composed.
-/
import proofs.«408830_j24043226923676_3_alg».proof.Proof.FrameI
import proofs.«408830_j24043226923676_3_alg».proof.Proof.Spec
import Idealize.ShloMosaic.Lib.StableHlo.Run
import Idealize.ShloMosaic.Lib.Pipeline.Frame
import Idealize.ShloMosaic.Lib.Pipeline.Value
import Idealize.ShloMosaic.Lib.ValueIdx

set_option maxRecDepth 16384

noncomputable section

namespace Cert.KernelIdeal.HostSide

open Cert.KernelIdeal Cert.KernelIdeal.Gen Idealize.ShloMosaic Idealize.ShloMosaic.TcCoe Idealize.ShloMosaic.ValueIdx Idealize.SL.Sem Cert.BoneSpec
open Idealize.ShloMosaic.StableHlo

/-! ## The stages of the selection matrix, as functions of their operands -/

/-- The skeleton table with every entry brought into `0 … 20` as a signed word. -/
def clipT (sk : IVec S20x2 32) : IVec S20x2 32 :=
  minsi (broadcastInDim S20x2 ![] bcast_S_S20x2 (constantI S_ 32 20#32))
    (maxsi (broadcastInDim S20x2 ![] bcast_S_S20x2 (constantI S_ 32 0#32)) sk)

/-- The flattened coordinate numbers of the bones' first joints on the axis whose word is `dw`: thrice the joint, plus the axis. -/
def idxA (t : IVec S20x2 32) (dw : BitVec 32) : IVec S20 32 :=
  addi (muli (shapeCast S20 (extractStridedSlice S20x1 ![0, 0] t slices_S20x2_S20x1_0_0) shapeCasts_S20x1_S20)
      (broadcastInDim S20 ![] bcast_S_S20 (constantI S_ 32 3#32)))
    (broadcastInDim S20 ![] bcast_S_S20 (constantI S_ 32 dw))

/-- The same of the bones' second joints. -/
def idxB (t : IVec S20x2 32) (dw : BitVec 32) : IVec S20 32 :=
  addi (muli (shapeCast S20 (extractStridedSlice S20x1 ![0, 1] t slices_S20x2_S20x1_0_1) shapeCasts_S20x1_S20)
      (broadcastInDim S20 ![] bcast_S_S20 (constantI S_ 32 3#32)))
    (broadcastInDim S20 ![] bcast_S_S20 (constantI S_ 32 dw))

/-- The indicator table of an index vector: row `k` marks column `v k`. -/
def oneHot (v : IVec S20 32) : FVec Ideal S20x63 .f32 :=
  uitofp .f32 (cmpi .eq
    (broadcastInDim S20x63 ![0, 1] bcast_S20x1_S20x63_0_1 (broadcastInDim S20x1 ![0] bcast_S20_S20x1_0 v))
    (broadcastInDim S20x63 ![0, 1] bcast_S1x63_S20x63_0_1 (iotaInDim S1x63 32 1)))

/-- One axis' block of the matrix: the difference of two indicator tables, transposed. -/
def selT (x y : FVec Ideal S20x63 .f32) : FVec Ideal S63x20 .f32 :=
  transpose S63x20 [1, 0] (subf x y) transposes_S20x63_S63x20_1_0

/-- The three blocks side by side, in the narrower format. -/
def selM (t0 t1 t2 : FVec Ideal S63x20 .f32) : FVec Ideal S63x60 .bf16 :=
  truncf .bf16 (concatenate S63x60 1 [⟨S63x20, t0⟩, ⟨S63x20, t1⟩, ⟨S63x20, t2⟩] concatenates_S63x20_S63x20_S63x20_S63x60_d1) bitsLt_bf16_f32

/-! ## Words in range -/

/-- A word below 21 is its own signed value. -/
theorem toInt_of_small {s : BitVec 32} (h : s.toNat < 21) : s.toInt = (s.toNat : Int) :=
  BitVec.toInt_eq_toNat_of_lt (by omega)

/-- The signed maximum with zero leaves a word below 21 alone. -/
theorem maxsi_zero {s : BitVec 32} (h : s.toNat < 21) : IntOp.maxsi 0#32 s = s := by
  have h0 : (0#32 : BitVec 32).toInt = 0 := by decide
  have hs := toInt_of_small h
  unfold IntOp.maxsi
  rw [if_neg]
  rw [BitVec.slt_iff_toInt_lt, hs, h0]
  omega

/-- The signed minimum with twenty leaves a word below 21 alone. -/
theorem minsi_twenty {s : BitVec 32} (h : s.toNat < 21) : IntOp.minsi 20#32 s = s := by
  have h0 : (20#32 : BitVec 32).toInt = 20 := by decide
  have hs := toInt_of_small h
  unfold IntOp.minsi
  rw [if_neg]
  rw [BitVec.slt_iff_toInt_lt, hs, h0]
  omega

/-- Thrice a word below 21 plus an axis number below 3 does not wrap. -/
theorem toNat_mul3_add {s : BitVec 32} (h : s.toNat < 21) (d : Nat) (hd : d < 3) :
    (s * 3#32 + BitVec.ofNat 32 d).toNat = 3 * s.toNat + d := by
  simp only [BitVec.toNat_add, BitVec.toNat_mul, BitVec.toNat_ofNat]
  omega

/-- A word equals the word of a number below 2³² exactly when that number is its value. -/
theorem eq_ofNat_iff (w : BitVec 32) (j : Nat) (hj : j < 63) : w = BitVec.ofNat 32 j ↔ w.toNat = j := by
  constructor
  · intro h; rw [h, BitVec.toNat_ofNat]; omega
  · intro h; apply BitVec.eq_of_toNat_eq; rw [BitVec.toNat_ofNat, h]; omega

/-! ## The stages read at an index -/

/-- Clipping is the identity on a table whose entries are joint numbers. -/
theorem clipT_apply (sk : IVec S20x2 32) (hsk : ∀ i, (sk i).toNat < 21) (i : S20x2.Idx) : clipT sk i = sk i := by
  show IntOp.minsi 20#32 (IntOp.maxsi 0#32 (sk i)) = sk i
  rw [maxsi_zero (hsk i), minsi_twenty (hsk i)]

/-- Entry `k` of the first joints' coordinate numbers. -/
theorem idxA_apply (t : IVec S20x2 32) (dw : BitVec 32) (k : Fin 20) :
    idxA t dw (ix1 k) = t (ix2 k 0) * 3#32 + dw := by
  show IntOp.addi (IntOp.muli (shapeCast S20 (extractStridedSlice S20x1 ![0, 0] t slices_S20x2_S20x1_0_0) shapeCasts_S20x1_S20 (ix1 k)) 3#32) dw = _
  rw [shapeCast_apply _ shapeCasts_S20x1_S20 (ix1 k) (ix2 k 0)
      (by rewrite [Shape.rowMajor_val_two, Shape.rowMajor_val_one]; show k.val * 1 + 0 = k.val; omega),
    extractStridedSlice_apply ![0, 0] t slices_S20x2_S20x1_0_0 (ix2 k 0) (ix2 k 0) (fun a => match a with
      | ⟨0, _⟩ => by show k.val = 0 + k.val; omega
      | ⟨1, _⟩ => by show 0 = 0 + 0; omega)]
  rfl

/-- Entry `k` of the second joints' coordinate numbers. -/
theorem idxB_apply (t : IVec S20x2 32) (dw : BitVec 32) (k : Fin 20) :
    idxB t dw (ix1 k) = t (ix2 k 1) * 3#32 + dw := by
  show IntOp.addi (IntOp.muli (shapeCast S20 (extractStridedSlice S20x1 ![0, 1] t slices_S20x2_S20x1_0_1) shapeCasts_S20x1_S20 (ix1 k)) 3#32) dw = _
  rw [shapeCast_apply _ shapeCasts_S20x1_S20 (ix1 k) (ix2 k 0)
      (by rewrite [Shape.rowMajor_val_two, Shape.rowMajor_val_one]; show k.val * 1 + 0 = k.val; omega),
    extractStridedSlice_apply ![0, 1] t slices_S20x2_S20x1_0_1 (ix2 k 0) (ix2 k 1) (fun a => match a with
      | ⟨0, _⟩ => by show k.val = 0 + k.val; omega
      | ⟨1, _⟩ => by show 1 = 1 + 0; omega)]
  rfl

/-- The indicator table at row `k`, column `j`: one exactly when entry `k` of the vector has the value `j`. -/
theorem oneHot_apply (v : IVec S20 32) (k : Fin 20) (j : Fin 63) :
    oneHot v (ix2 k j) = if (v (ix1 k)).toNat = j.val then (1 : EReal) else 0 := by
  show FloatOps.uitofp (F := Ideal) .f32 (IntOp.cmpi .eq
      (broadcastInDim S20x63 ![0, 1] bcast_S20x1_S20x63_0_1 (broadcastInDim S20x1 ![0] bcast_S20_S20x1_0 v) (ix2 k j))
      (broadcastInDim S20x63 ![0, 1] bcast_S1x63_S20x63_0_1 (iotaInDim S1x63 32 1) (ix2 k j))) = _
  rw [broadcastInDim_apply ![0, 1] bcast_S20x1_S20x63_0_1 _ (ix2 k j) (ix2 k 0) (fun a => match a with
      | ⟨0, _⟩ => by show k.val = if (20 : Nat) = 1 then 0 else k.val; rw [if_neg (by decide)]
      | ⟨1, _⟩ => by show 0 = if (1 : Nat) = 1 then 0 else j.val; rw [if_pos rfl]),
    broadcastInDim_apply ![0] bcast_S20_S20x1_0 v (ix2 k 0) (ix1 k) (fun a => match a with
      | ⟨0, _⟩ => by show k.val = if (20 : Nat) = 1 then 0 else k.val; rw [if_neg (by decide)]),
    broadcastInDim_apply ![0, 1] bcast_S1x63_S20x63_0_1 _ (ix2 k j) (ix2 0 j) (fun a => match a with
      | ⟨0, _⟩ => by show 0 = if (1 : Nat) = 1 then 0 else k.val; rw [if_pos rfl]
      | ⟨1, _⟩ => by show j.val = if (63 : Nat) = 1 then 0 else j.val; rw [if_neg (by decide)])]
  show (((IntOp.cmpi .eq (v (ix1 k)) (BitVec.ofNat 32 j.val)).toNat : ℝ) : EReal) = _
  unfold IntOp.cmpi
  show ((((BitVec.ofBool (v (ix1 k) == BitVec.ofNat 32 j.val)).toNat : ℕ) : ℝ) : EReal) = _
  rw [BitVec.toNat_ofBool]
  by_cases h : (v (ix1 k)).toNat = j.val
  · rw [if_pos h, (beq_iff_eq.mpr ((eq_ofNat_iff _ _ j.isLt).mpr h))]
    simp
  · rw [if_neg h, (beq_eq_false_iff_ne.mpr (fun e => h ((eq_ofNat_iff _ _ j.isLt).mp e)))]
    simp

/-- One axis' block at row `j`, column `k`. -/
theorem selT_apply (x y : FVec Ideal S20x63 .f32) (j : Fin 63) (k : Fin 20) :
    selT x y (ix2 j k) = x (ix2 k j) - y (ix2 k j) := by
  unfold selT
  rw [transpose_apply [1, 0] (subf x y) transposes_S20x63_S63x20_1_0 (ix2 j k) (ix2 k j) (fun b => match b with
      | ⟨0, _⟩ => rfl
      | ⟨1, _⟩ => rfl)]
  rfl

/-- The matrix at a column of the first, of the second, of the third block. -/
theorem selM_apply0 (t0 t1 t2 : FVec Ideal S63x20 .f32) (j : Fin 63) (k : Fin 20) :
    selM t0 t1 t2 (ix2 j (col 0 k)) = t0 (ix2 j k) := by
  unfold selM
  rw [truncf_apply]
  exact concatenate_apply_piece 1 [⟨S63x20, t0⟩, ⟨S63x20, t1⟩, ⟨S63x20, t2⟩] concatenates_S63x20_S63x20_S63x20_S63x60_d1 (ix2 j (col 0 k)) 0 (by show 0 < 3; omega) S63x20 t0 rfl rfl 0 rfl
    (ix2 j k) (fun b hb => match b, hb with
      | ⟨0, _⟩, _ => rfl
      | ⟨1, _⟩, hb => absurd rfl hb)
    (by show 0 + k.val = 0 * 20 + k.val; omega)

theorem selM_apply1 (t0 t1 t2 : FVec Ideal S63x20 .f32) (j : Fin 63) (k : Fin 20) :
    selM t0 t1 t2 (ix2 j (col 1 k)) = t1 (ix2 j k) := by
  unfold selM
  rw [truncf_apply]
  exact concatenate_apply_piece 1 [⟨S63x20, t0⟩, ⟨S63x20, t1⟩, ⟨S63x20, t2⟩] concatenates_S63x20_S63x20_S63x20_S63x60_d1 (ix2 j (col 1 k)) 1 (by show 1 < 3; omega) S63x20 t1 rfl rfl 20 rfl
    (ix2 j k) (fun b hb => match b, hb with
      | ⟨0, _⟩, _ => rfl
      | ⟨1, _⟩, hb => absurd rfl hb)
    (by show 20 + k.val = 1 * 20 + k.val; omega)

theorem selM_apply2 (t0 t1 t2 : FVec Ideal S63x20 .f32) (j : Fin 63) (k : Fin 20) :
    selM t0 t1 t2 (ix2 j (col 2 k)) = t2 (ix2 j k) := by
  unfold selM
  rw [truncf_apply]
  exact concatenate_apply_piece 1 [⟨S63x20, t0⟩, ⟨S63x20, t1⟩, ⟨S63x20, t2⟩] concatenates_S63x20_S63x20_S63x20_S63x60_d1 (ix2 j (col 2 k)) 2 (by show 2 < 3; omega) S63x20 t2 rfl rfl 40 rfl
    (ix2 j k) (fun b hb => match b, hb with
      | ⟨0, _⟩, _ => rfl
      | ⟨1, _⟩, hb => absurd rfl hb)
    (by show 40 + k.val = 2 * 20 + k.val; omega)

/-! ## What each stretch leaves alone

The references a stretch's operations write, listed; a reference outside the list keeps its contents over the stretch. -/

section Keep
variable (V : Valuation τ sig (Elt Ideal))

abbrev W0 : List (Ref sig .tc) := [main_c, main_c_0]
theorem writes0 : (hostOps0 (F := Ideal)).Forall fun op => op.writes ⊆ (W0.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
theorem keep0 {r : Ref sig .tc} (h : r ∉ W0) : after (hostOps0 (F := Ideal)) V (Proc.devRef .tc r) = V (Proc.devRef .tc r) :=
  after_of_writes_sub _ V writes0 h

abbrev W1 : List (Ref sig .tc) := [main_call0_v0, main_call0_v1, main_call0_v2, main_call0_v3, main_call0_v4, main_v0]
theorem writes1 : (hostOps0_1 (F := Ideal)).Forall fun op => op.writes ⊆ (W1.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
theorem keep1 {r : Ref sig .tc} (h : r ∉ W1) : after (hostOps0_1 (F := Ideal)) V (Proc.devRef .tc r) = V (Proc.devRef .tc r) :=
  after_of_writes_sub _ V writes1 h

abbrev W2 : List (Ref sig .tc) := [main_v1, main_v2, main_c_1, main_v3, main_v4, main_c_2, main_v5, main_v6, main_v7, main_v8, main_c_3, main_v9, main_v10, main_c_4, main_v11, main_v12]
theorem writes2 : (hostOps0_2 (F := Ideal)).Forall fun op => op.writes ⊆ (W2.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
theorem keep2 {r : Ref sig .tc} (h : r ∉ W2) : after (hostOps0_2 (F := Ideal)) V (Proc.devRef .tc r) = V (Proc.devRef .tc r) :=
  after_of_writes_sub _ V writes2 h

abbrev W3 : List (Ref sig .tc) := [main_call1_v0, main_call1_v1, main_call1_v2, main_call1_v3, main_call1_v4, main_v13]
theorem writes3 : (hostOps0_3 (F := Ideal)).Forall fun op => op.writes ⊆ (W3.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
theorem keep3 {r : Ref sig .tc} (h : r ∉ W3) : after (hostOps0_3 (F := Ideal)) V (Proc.devRef .tc r) = V (Proc.devRef .tc r) :=
  after_of_writes_sub _ V writes3 h

abbrev W4 : List (Ref sig .tc) := [main_call2_v0, main_call2_v1, main_call2_v2, main_call2_v3, main_call2_v4, main_v14]
theorem writes4 : (hostOps0_4 (F := Ideal)).Forall fun op => op.writes ⊆ (W4.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
theorem keep4 {r : Ref sig .tc} (h : r ∉ W4) : after (hostOps0_4 (F := Ideal)) V (Proc.devRef .tc r) = V (Proc.devRef .tc r) :=
  after_of_writes_sub _ V writes4 h

abbrev W5 : List (Ref sig .tc) := [main_v15, main_v16, main_v17, main_v18, main_c_5, main_v19, main_v20, main_c_6, main_v21, main_v22, main_v23, main_v24, main_c_7, main_v25, main_v26, main_c_8, main_v27, main_v28]
theorem writes5 : (hostOps0_5 (F := Ideal)).Forall fun op => op.writes ⊆ (W5.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
theorem keep5 {r : Ref sig .tc} (h : r ∉ W5) : after (hostOps0_5 (F := Ideal)) V (Proc.devRef .tc r) = V (Proc.devRef .tc r) :=
  after_of_writes_sub _ V writes5 h

abbrev W6 : List (Ref sig .tc) := [main_call3_v0, main_call3_v1, main_call3_v2, main_call3_v3, main_call3_v4, main_v29]
theorem writes6 : (hostOps0_6 (F := Ideal)).Forall fun op => op.writes ⊆ (W6.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
theorem keep6 {r : Ref sig .tc} (h : r ∉ W6) : after (hostOps0_6 (F := Ideal)) V (Proc.devRef .tc r) = V (Proc.devRef .tc r) :=
  after_of_writes_sub _ V writes6 h

abbrev W7 : List (Ref sig .tc) := [main_call4_v0, main_call4_v1, main_call4_v2, main_call4_v3, main_call4_v4, main_v30]
theorem writes7 : (hostOps0_7 (F := Ideal)).Forall fun op => op.writes ⊆ (W7.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
theorem keep7 {r : Ref sig .tc} (h : r ∉ W7) : after (hostOps0_7 (F := Ideal)) V (Proc.devRef .tc r) = V (Proc.devRef .tc r) :=
  after_of_writes_sub _ V writes7 h

abbrev W8 : List (Ref sig .tc) := [main_v31, main_v32, main_v33, main_v34, main_c_9, main_v35, main_v36, main_c_10, main_v37, main_v38, main_v39, main_v40, main_c_11, main_v41, main_v42, main_c_12, main_v43, main_v44]
theorem writes8 : (hostOps0_8 (F := Ideal)).Forall fun op => op.writes ⊆ (W8.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
theorem keep8 {r : Ref sig .tc} (h : r ∉ W8) : after (hostOps0_8 (F := Ideal)) V (Proc.devRef .tc r) = V (Proc.devRef .tc r) :=
  after_of_writes_sub _ V writes8 h

abbrev W9 : List (Ref sig .tc) := [main_call5_v0, main_call5_v1, main_call5_v2, main_call5_v3, main_call5_v4, main_v45]
theorem writes9 : (hostOps0_9 (F := Ideal)).Forall fun op => op.writes ⊆ (W9.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
theorem keep9 {r : Ref sig .tc} (h : r ∉ W9) : after (hostOps0_9 (F := Ideal)) V (Proc.devRef .tc r) = V (Proc.devRef .tc r) :=
  after_of_writes_sub _ V writes9 h

abbrev W10 : List (Ref sig .tc) := [main_call6_v0, main_call6_v1, main_call6_v2, main_call6_v3, main_call6_v4, main_v46]
theorem writes10 : (hostOps0_10 (F := Ideal)).Forall fun op => op.writes ⊆ (W10.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
theorem keep10 {r : Ref sig .tc} (h : r ∉ W10) : after (hostOps0_10 (F := Ideal)) V (Proc.devRef .tc r) = V (Proc.devRef .tc r) :=
  after_of_writes_sub _ V writes10 h

end Keep

/-! ## What each stretch computes, from any contents -/

section Stretches
variable (V : Valuation τ sig (Elt Ideal))

theorem clip_result :
    (after (hostOps0_1 (F := Ideal)) (after (hostOps0 (F := Ideal)) V) (Proc.devRef .tc main_v0) : IVec S20x2 32)
      = clipT (V (Proc.devRef .tc main_arg2)) := by
  simp only [hostOps0, hostOps0_1]
  after_results
  rfl

theorem idx0_result :
    (after (hostOps0_2 (F := Ideal)) V (Proc.devRef .tc main_v6) : IVec S20 32) = idxA (V (Proc.devRef .tc main_v0)) 0#32
    ∧ (after (hostOps0_2 (F := Ideal)) V (Proc.devRef .tc main_v12) : IVec S20 32) = idxB (V (Proc.devRef .tc main_v0)) 0#32 := by
  simp only [hostOps0_2]
  constructor
  · after_results; rfl
  · after_results; rfl

theorem hot3_result :
    (after (hostOps0_3 (F := Ideal)) V (Proc.devRef .tc main_v13) : FVec Ideal S20x63 .f32) = oneHot (V (Proc.devRef .tc main_v6)) := by
  simp only [hostOps0_3]
  after_results
  rfl

theorem hot4_result :
    (after (hostOps0_4 (F := Ideal)) V (Proc.devRef .tc main_v14) : FVec Ideal S20x63 .f32) = oneHot (V (Proc.devRef .tc main_v12)) := by
  simp only [hostOps0_4]
  after_results
  rfl

theorem idx1_result :
    (after (hostOps0_5 (F := Ideal)) V (Proc.devRef .tc main_v16) : FVec Ideal S63x20 .f32) = selT (V (Proc.devRef .tc main_v13)) (V (Proc.devRef .tc main_v14))
    ∧ (after (hostOps0_5 (F := Ideal)) V (Proc.devRef .tc main_v22) : IVec S20 32) = idxA (V (Proc.devRef .tc main_v0)) 1#32
    ∧ (after (hostOps0_5 (F := Ideal)) V (Proc.devRef .tc main_v28) : IVec S20 32) = idxB (V (Proc.devRef .tc main_v0)) 1#32 := by
  simp only [hostOps0_5]
  refine ⟨?_, ?_, ?_⟩
  · after_results; rfl
  · after_results; rfl
  · after_results; rfl

theorem hot6_result :
    (after (hostOps0_6 (F := Ideal)) V (Proc.devRef .tc main_v29) : FVec Ideal S20x63 .f32) = oneHot (V (Proc.devRef .tc main_v22)) := by
  simp only [hostOps0_6]
  after_results
  rfl

theorem hot7_result :
    (after (hostOps0_7 (F := Ideal)) V (Proc.devRef .tc main_v30) : FVec Ideal S20x63 .f32) = oneHot (V (Proc.devRef .tc main_v28)) := by
  simp only [hostOps0_7]
  after_results
  rfl

theorem idx2_result :
    (after (hostOps0_8 (F := Ideal)) V (Proc.devRef .tc main_v32) : FVec Ideal S63x20 .f32) = selT (V (Proc.devRef .tc main_v29)) (V (Proc.devRef .tc main_v30))
    ∧ (after (hostOps0_8 (F := Ideal)) V (Proc.devRef .tc main_v38) : IVec S20 32) = idxA (V (Proc.devRef .tc main_v0)) 2#32
    ∧ (after (hostOps0_8 (F := Ideal)) V (Proc.devRef .tc main_v44) : IVec S20 32) = idxB (V (Proc.devRef .tc main_v0)) 2#32 := by
  simp only [hostOps0_8]
  refine ⟨?_, ?_, ?_⟩
  · after_results; rfl
  · after_results; rfl
  · after_results; rfl

theorem hot9_result :
    (after (hostOps0_9 (F := Ideal)) V (Proc.devRef .tc main_v45) : FVec Ideal S20x63 .f32) = oneHot (V (Proc.devRef .tc main_v38)) := by
  simp only [hostOps0_9]
  after_results
  rfl

theorem hot10_result :
    (after (hostOps0_10 (F := Ideal)) V (Proc.devRef .tc main_v46) : FVec Ideal S20x63 .f32) = oneHot (V (Proc.devRef .tc main_v44)) := by
  simp only [hostOps0_10]
  after_results
  rfl

theorem last_result :
    (after (hostOps0_11 (F := Ideal)) V (Proc.devRef .tc main_v50) : FVec Ideal S63x60 .bf16)
      = selM (V (Proc.devRef .tc main_v16)) (V (Proc.devRef .tc main_v32)) (selT (V (Proc.devRef .tc main_v45)) (V (Proc.devRef .tc main_v46)))
    ∧ (after (hostOps0_11 (F := Ideal)) V (Proc.devRef .tc main_v51) : FVec Ideal S1048576x63 .f32)
      = shapeCast S1048576x63 (V (Proc.devRef .tc main_arg0) : FVec Ideal S1048576x21x3 .f32) shapeCasts_S1048576x21x3_S1048576x63
    ∧ (after (hostOps0_11 (F := Ideal)) V (Proc.devRef .tc main_v52) : FVec Ideal S1048576x63 .f32)
      = shapeCast S1048576x63 (V (Proc.devRef .tc main_arg1) : FVec Ideal S1048576x21x3 .f32) shapeCasts_S1048576x21x3_S1048576x63 := by
  simp only [hostOps0_11]
  refine ⟨?_, ?_, ?_⟩
  · after_results; rfl
  · after_results; rfl
  · after_results; rfl

end Stretches

variable (m : (ℓ : Loc nD τ sig) → Buf (Elt Ideal) ℓ)

/-! ## The contents, stretch after stretch -/

section Stages
variable (c : Dev nD)

/-- Core `c`'s buffers as launched, and after the clipping, after each later stretch but the last. -/
def V0 : Valuation τ sig (Elt Ideal) := fun b => m (c, b)
def V1 : Valuation τ sig (Elt Ideal) := after (hostOps0_1 (F := Ideal)) (after (hostOps0 (F := Ideal)) (V0 m c))
def V2 : Valuation τ sig (Elt Ideal) := after (hostOps0_2 (F := Ideal)) (V1 m c)
def V3 : Valuation τ sig (Elt Ideal) := after (hostOps0_3 (F := Ideal)) (V2 m c)
def V4 : Valuation τ sig (Elt Ideal) := after (hostOps0_4 (F := Ideal)) (V3 m c)
def V5 : Valuation τ sig (Elt Ideal) := after (hostOps0_5 (F := Ideal)) (V4 m c)
def V6 : Valuation τ sig (Elt Ideal) := after (hostOps0_6 (F := Ideal)) (V5 m c)
def V7 : Valuation τ sig (Elt Ideal) := after (hostOps0_7 (F := Ideal)) (V6 m c)
def V8 : Valuation τ sig (Elt Ideal) := after (hostOps0_8 (F := Ideal)) (V7 m c)
def V9 : Valuation τ sig (Elt Ideal) := after (hostOps0_9 (F := Ideal)) (V8 m c)
def V10 : Valuation τ sig (Elt Ideal) := after (hostOps0_10 (F := Ideal)) (V9 m c)

/-- The region finds each buffer as the last stretch leaves it. -/
theorem entry_eq (b : Ref sig .tc) :
    Fr.entry (F := Ideal) m c b = after (hostOps0_11 (F := Ideal)) (V10 m c) (Proc.devRef .tc b) := by
  show after (List.flatten Fr.stretches) (fun b => m (c, b)) (Proc.devRef .tc b) = _
  simp only [Fr.stretches, List.flatten_cons, List.flatten_nil, List.append_nil, StableHlo.after_append]
  rfl

/-- A buffer none of the first eleven stretches writes is still as launched. -/
theorem v10_of_unwritten {r : Ref sig .tc}
    (h : r ∉ W0 ++ (W1 ++ (W2 ++ (W3 ++ (W4 ++ (W5 ++ (W6 ++ (W7 ++ (W8 ++ (W9 ++ W10)))))))))) :
    V10 m c (Proc.devRef .tc r) = m ((c.tc : Thread nD τ).loc r) := by
  simp only [List.mem_append, not_or] at h
  obtain ⟨h0, h1, h2, h3, h4, h5, h6, h7, h8, h9, h10⟩ := h
  exact (keep10 _ h10).trans ((keep9 _ h9).trans ((keep8 _ h8).trans ((keep7 _ h7).trans ((keep6 _ h6).trans ((keep5 _ h5).trans
    ((keep4 _ h4).trans ((keep3 _ h3).trans ((keep2 _ h2).trans ((keep1 _ h1).trans (keep0 _ h0))))))))))

/-- One axis' block of the matrix, from the skeleton table: the axis enters as the word `dw`. -/
def blockT (sk : IVec S20x2 32) (dw : BitVec 32) : FVec Ideal S63x20 .f32 :=
  selT (oneHot (idxA (clipT sk) dw)) (oneHot (idxB (clipT sk) dw))

theorem v1_v0 : (V1 m c (Proc.devRef .tc main_v0) : IVec S20x2 32) = clipT (m ((c.tc : Thread nD τ).loc main_arg2)) :=
  clip_result (V0 m c)
theorem v2_v0 : (V2 m c (Proc.devRef .tc main_v0) : IVec S20x2 32) = clipT (m ((c.tc : Thread nD τ).loc main_arg2)) :=
  (keep2 (V1 m c) (by decide)).trans (v1_v0 m c)
theorem v2_v6 : (V2 m c (Proc.devRef .tc main_v6) : IVec S20 32) = idxA (clipT (m ((c.tc : Thread nD τ).loc main_arg2))) 0#32 :=
  (idx0_result (V1 m c)).1.trans (by rw [v1_v0])
theorem v2_v12 : (V2 m c (Proc.devRef .tc main_v12) : IVec S20 32) = idxB (clipT (m ((c.tc : Thread nD τ).loc main_arg2))) 0#32 :=
  (idx0_result (V1 m c)).2.trans (by rw [v1_v0])
theorem v3_v0 : (V3 m c (Proc.devRef .tc main_v0) : IVec S20x2 32) = clipT (m ((c.tc : Thread nD τ).loc main_arg2)) :=
  (keep3 (V2 m c) (by decide)).trans (v2_v0 m c)
theorem v3_v12 : (V3 m c (Proc.devRef .tc main_v12) : IVec S20 32) = idxB (clipT (m ((c.tc : Thread nD τ).loc main_arg2))) 0#32 :=
  (keep3 (V2 m c) (by decide)).trans (v2_v12 m c)
theorem v3_v13 : (V3 m c (Proc.devRef .tc main_v13) : FVec Ideal S20x63 .f32) = oneHot (idxA (clipT (m ((c.tc : Thread nD τ).loc main_arg2))) 0#32) :=
  (hot3_result (V2 m c)).trans (by rw [v2_v6])
theorem v4_v0 : (V4 m c (Proc.devRef .tc main_v0) : IVec S20x2 32) = clipT (m ((c.tc : Thread nD τ).loc main_arg2)) :=
  (keep4 (V3 m c) (by decide)).trans (v3_v0 m c)
theorem v4_v13 : (V4 m c (Proc.devRef .tc main_v13) : FVec Ideal S20x63 .f32) = oneHot (idxA (clipT (m ((c.tc : Thread nD τ).loc main_arg2))) 0#32) :=
  (keep4 (V3 m c) (by decide)).trans (v3_v13 m c)
theorem v4_v14 : (V4 m c (Proc.devRef .tc main_v14) : FVec Ideal S20x63 .f32) = oneHot (idxB (clipT (m ((c.tc : Thread nD τ).loc main_arg2))) 0#32) :=
  (hot4_result (V3 m c)).trans (by rw [v3_v12])
theorem v5_v0 : (V5 m c (Proc.devRef .tc main_v0) : IVec S20x2 32) = clipT (m ((c.tc : Thread nD τ).loc main_arg2)) :=
  (keep5 (V4 m c) (by decide)).trans (v4_v0 m c)
theorem v5_v16 : (V5 m c (Proc.devRef .tc main_v16) : FVec Ideal S63x20 .f32) = blockT (m ((c.tc : Thread nD τ).loc main_arg2)) 0#32 :=
  (idx1_result (V4 m c)).1.trans (by rw [v4_v13, v4_v14]; rfl)
theorem v5_v22 : (V5 m c (Proc.devRef .tc main_v22) : IVec S20 32) = idxA (clipT (m ((c.tc : Thread nD τ).loc main_arg2))) 1#32 :=
  (idx1_result (V4 m c)).2.1.trans (by rw [v4_v0])
theorem v5_v28 : (V5 m c (Proc.devRef .tc main_v28) : IVec S20 32) = idxB (clipT (m ((c.tc : Thread nD τ).loc main_arg2))) 1#32 :=
  (idx1_result (V4 m c)).2.2.trans (by rw [v4_v0])
theorem v6_v0 : (V6 m c (Proc.devRef .tc main_v0) : IVec S20x2 32) = clipT (m ((c.tc : Thread nD τ).loc main_arg2)) :=
  (keep6 (V5 m c) (by decide)).trans (v5_v0 m c)
theorem v6_v16 : (V6 m c (Proc.devRef .tc main_v16) : FVec Ideal S63x20 .f32) = blockT (m ((c.tc : Thread nD τ).loc main_arg2)) 0#32 :=
  (keep6 (V5 m c) (by decide)).trans (v5_v16 m c)
theorem v6_v28 : (V6 m c (Proc.devRef .tc main_v28) : IVec S20 32) = idxB (clipT (m ((c.tc : Thread nD τ).loc main_arg2))) 1#32 :=
  (keep6 (V5 m c) (by decide)).trans (v5_v28 m c)
theorem v6_v29 : (V6 m c (Proc.devRef .tc main_v29) : FVec Ideal S20x63 .f32) = oneHot (idxA (clipT (m ((c.tc : Thread nD τ).loc main_arg2))) 1#32) :=
  (hot6_result (V5 m c)).trans (by rw [v5_v22])
theorem v7_v0 : (V7 m c (Proc.devRef .tc main_v0) : IVec S20x2 32) = clipT (m ((c.tc : Thread nD τ).loc main_arg2)) :=
  (keep7 (V6 m c) (by decide)).trans (v6_v0 m c)
theorem v7_v16 : (V7 m c (Proc.devRef .tc main_v16) : FVec Ideal S63x20 .f32) = blockT (m ((c.tc : Thread nD τ).loc main_arg2)) 0#32 :=
  (keep7 (V6 m c) (by decide)).trans (v6_v16 m c)
theorem v7_v29 : (V7 m c (Proc.devRef .tc main_v29) : FVec Ideal S20x63 .f32) = oneHot (idxA (clipT (m ((c.tc : Thread nD τ).loc main_arg2))) 1#32) :=
  (keep7 (V6 m c) (by decide)).trans (v6_v29 m c)
theorem v7_v30 : (V7 m c (Proc.devRef .tc main_v30) : FVec Ideal S20x63 .f32) = oneHot (idxB (clipT (m ((c.tc : Thread nD τ).loc main_arg2))) 1#32) :=
  (hot7_result (V6 m c)).trans (by rw [v6_v28])
theorem v8_v16 : (V8 m c (Proc.devRef .tc main_v16) : FVec Ideal S63x20 .f32) = blockT (m ((c.tc : Thread nD τ).loc main_arg2)) 0#32 :=
  (keep8 (V7 m c) (by decide)).trans (v7_v16 m c)
theorem v8_v32 : (V8 m c (Proc.devRef .tc main_v32) : FVec Ideal S63x20 .f32) = blockT (m ((c.tc : Thread nD τ).loc main_arg2)) 1#32 :=
  (idx2_result (V7 m c)).1.trans (by rw [v7_v29, v7_v30]; rfl)
theorem v8_v38 : (V8 m c (Proc.devRef .tc main_v38) : IVec S20 32) = idxA (clipT (m ((c.tc : Thread nD τ).loc main_arg2))) 2#32 :=
  (idx2_result (V7 m c)).2.1.trans (by rw [v7_v0])
theorem v8_v44 : (V8 m c (Proc.devRef .tc main_v44) : IVec S20 32) = idxB (clipT (m ((c.tc : Thread nD τ).loc main_arg2))) 2#32 :=
  (idx2_result (V7 m c)).2.2.trans (by rw [v7_v0])
theorem v9_v16 : (V9 m c (Proc.devRef .tc main_v16) : FVec Ideal S63x20 .f32) = blockT (m ((c.tc : Thread nD τ).loc main_arg2)) 0#32 :=
  (keep9 (V8 m c) (by decide)).trans (v8_v16 m c)
theorem v9_v32 : (V9 m c (Proc.devRef .tc main_v32) : FVec Ideal S63x20 .f32) = blockT (m ((c.tc : Thread nD τ).loc main_arg2)) 1#32 :=
  (keep9 (V8 m c) (by decide)).trans (v8_v32 m c)
theorem v9_v44 : (V9 m c (Proc.devRef .tc main_v44) : IVec S20 32) = idxB (clipT (m ((c.tc : Thread nD τ).loc main_arg2))) 2#32 :=
  (keep9 (V8 m c) (by decide)).trans (v8_v44 m c)
theorem v9_v45 : (V9 m c (Proc.devRef .tc main_v45) : FVec Ideal S20x63 .f32) = oneHot (idxA (clipT (m ((c.tc : Thread nD τ).loc main_arg2))) 2#32) :=
  (hot9_result (V8 m c)).trans (by rw [v8_v38])
theorem v10_v16 : (V10 m c (Proc.devRef .tc main_v16) : FVec Ideal S63x20 .f32) = blockT (m ((c.tc : Thread nD τ).loc main_arg2)) 0#32 :=
  (keep10 (V9 m c) (by decide)).trans (v9_v16 m c)
theorem v10_v32 : (V10 m c (Proc.devRef .tc main_v32) : FVec Ideal S63x20 .f32) = blockT (m ((c.tc : Thread nD τ).loc main_arg2)) 1#32 :=
  (keep10 (V9 m c) (by decide)).trans (v9_v32 m c)
theorem v10_v45 : (V10 m c (Proc.devRef .tc main_v45) : FVec Ideal S20x63 .f32) = oneHot (idxA (clipT (m ((c.tc : Thread nD τ).loc main_arg2))) 2#32) :=
  (keep10 (V9 m c) (by decide)).trans (v9_v45 m c)
theorem v10_v46 : (V10 m c (Proc.devRef .tc main_v46) : FVec Ideal S20x63 .f32) = oneHot (idxB (clipT (m ((c.tc : Thread nD τ).loc main_arg2))) 2#32) :=
  (hot10_result (V9 m c)).trans (by rw [v9_v44])

/-- The matrix the region finds: the three axes' blocks side by side. -/
theorem entry_v50 :
    (Fr.entry (F := Ideal) m c main_v50 : FVec Ideal S63x60 .bf16)
      = selM (blockT (m ((c.tc : Thread nD τ).loc main_arg2)) 0#32) (blockT (m ((c.tc : Thread nD τ).loc main_arg2)) 1#32) (blockT (m ((c.tc : Thread nD τ).loc main_arg2)) 2#32) := by
  rw [entry_eq m c main_v50, (last_result (V10 m c)).1, v10_v16, v10_v32, v10_v45, v10_v46]
  rfl

/-- The coordinate arrays the region finds: the arguments re-laid. -/
theorem entry_v51 :
    (Fr.entry (F := Ideal) m c main_v51 : FVec Ideal S1048576x63 .f32)
      = shapeCast S1048576x63 (m ((c.tc : Thread nD τ).loc main_arg0) : FVec Ideal S1048576x21x3 .f32) shapeCasts_S1048576x21x3_S1048576x63 := by
  rw [entry_eq m c main_v51, (last_result (V10 m c)).2.1, v10_of_unwritten m c (r := main_arg0) (by decide)]

theorem entry_v52 :
    (Fr.entry (F := Ideal) m c main_v52 : FVec Ideal S1048576x63 .f32)
      = shapeCast S1048576x63 (m ((c.tc : Thread nD τ).loc main_arg1) : FVec Ideal S1048576x21x3 .f32) shapeCasts_S1048576x21x3_S1048576x63 := by
  rw [entry_eq m c main_v52, (last_result (V10 m c)).2.2, v10_of_unwritten m c (r := main_arg1) (by decide)]

end Stages

/-! ## The three arrays at an index -/

/-- The matrix at a column of block `d` is that block at the column's bone. -/
theorem selM_apply (t : Fin 3 → FVec Ideal S63x20 .f32) (j : Fin 63) (d : Fin 3) (k : Fin 20) :
    selM (t 0) (t 1) (t 2) (ix2 j (col d k)) = t d (ix2 j k) :=
  match d with
  | ⟨0, _⟩ => selM_apply0 (t 0) (t 1) (t 2) j k
  | ⟨1, _⟩ => selM_apply1 (t 0) (t 1) (t 2) j k
  | ⟨2, _⟩ => selM_apply2 (t 0) (t 1) (t 2) j k

/-- A block at row `j`, bone `k`: `+1` where `j` is the first joint's coordinate on the block's axis, `-1` where it is the
    second's. The word of a joint's coordinate number is thrice the joint plus the axis, and a row number is below 63. -/
theorem blockT_apply (sk : IVec S20x2 32) (hsk : ∀ i, (sk i).toNat < 21) (d : Fin 3) (j : Fin 63) (k : Fin 20) :
    blockT sk (BitVec.ofNat 32 d.val) (ix2 j k)
      = (if j = flat (joint sk k 0) d then (1 : EReal) else 0) - (if j = flat (joint sk k 1) d then (1 : EReal) else 0) := by
  have e : ∀ e : Fin 2, (3 * (sk (ix2 k e)).toNat + d.val = j.val) ↔ j = flat (joint sk k e) d := by
    intro e
    rw [Fin.ext_iff]
    show _ ↔ j.val = 3 * (joint sk k e).val + d.val
    rw [joint_val sk hsk]
    omega
  unfold blockT
  rw [selT_apply, oneHot_apply, oneHot_apply, idxA_apply, idxB_apply, clipT_apply sk hsk, clipT_apply sk hsk,
    toNat_mul3_add (hsk _) d.val d.isLt, toNat_mul3_add (hsk _) d.val d.isLt]
  simp only [e]

/-- The selection matrix: column (d, k) marks the flattened coordinate of bone k's first joint with +1 and of its second with −1. -/
theorem sel_entry (c : Dev nD) (hsk : ∀ i, (m ((c.tc : Thread nD τ).loc main_arg2) i).toNat < 21) (j : Fin 63) (d : Fin 3) (k : Fin 20) :
    (Fr.entry (F := Ideal) m c main_v50 : S63x60.Idx → EReal) (ix2 j (col d k))
      = (if j = flat (joint (m ((c.tc : Thread nD τ).loc main_arg2)) k 0) d then (1 : EReal) else 0)
        - (if j = flat (joint (m ((c.tc : Thread nD τ).loc main_arg2)) k 1) d then (1 : EReal) else 0) := by
  rw [entry_v50 m c]
  exact (selM_apply (fun d : Fin 3 => blockT (m ((c.tc : Thread nD τ).loc main_arg2)) (BitVec.ofNat 32 d.val)) j d k).trans
    (blockT_apply _ hsk d j k)

/-- The first coordinate array re-laid: column 3·p + d of row b is coordinate d of joint p. -/
theorem out_entry (c : Dev nD) (b : Fin 1048576) (p : Fin 21) (d : Fin 3) :
    (Fr.entry (F := Ideal) m c main_v51 : S1048576x63.Idx → EReal) (ix2 b (flat p d))
      = (m ((c.tc : Thread nD τ).loc main_arg0) : S1048576x21x3.Idx → EReal) (ix3 b p d) := by
  rw [entry_v51 m c]
  exact shapeCast_apply _ shapeCasts_S1048576x21x3_S1048576x63 (ix2 b (flat p d)) (ix3 b p d)
    (by rewrite [Shape.rowMajor_val_three, Shape.rowMajor_val_two]
        show (b.val * 21 + p.val) * 3 + d.val = b.val * 63 + (3 * p.val + d.val)
        omega)

/-- The second likewise. -/
theorem gt_entry (c : Dev nD) (b : Fin 1048576) (p : Fin 21) (d : Fin 3) :
    (Fr.entry (F := Ideal) m c main_v52 : S1048576x63.Idx → EReal) (ix2 b (flat p d))
      = (m ((c.tc : Thread nD τ).loc main_arg1) : S1048576x21x3.Idx → EReal) (ix3 b p d) := by
  rw [entry_v52 m c]
  exact shapeCast_apply _ shapeCasts_S1048576x21x3_S1048576x63 (ix2 b (flat p d)) (ix3 b p d)
    (by rewrite [Shape.rowMajor_val_three, Shape.rowMajor_val_two]
        show (b.val * 21 + p.val) * 3 + d.val = b.val * 63 + (3 * p.val + d.val)
        omega)

end Cert.KernelIdeal.HostSide

end
-- ==== Proof.RefValue.lean ====
import proofs.«408830_j24043226923676_3_alg».proof.Proof.Gen.ReferenceIdeal.Run
import proofs.«408830_j24043226923676_3_alg».proof.Proof.Gen.ReferenceIdeal.Read
import proofs.«408830_j24043226923676_3_alg».proof.Proof.Spec
import Idealize.ShloMosaic.Lib.ValueIdx
import Idealize.ShloMosaic.PureOps.Ideal.Laws

/-
  The reference program's result is the specification function.

  Every skeleton word has value below 21, so read as a signed word it is not negative: the reference's index fix-up
  `select (s <ₛ 0) (s + 21) s` is `s`, and the gather's clamp of its start index into `[0, 20]` is the identity. Hence
  each of the four gathered arrays is its operand at the joint the word names: `gather(x, idx)[b, k, d] = x[b, s_k, d]`,
  with `s_k` the value of the word at `[k, 0]` or `[k, 1]` of the skeleton. Every other stage is pointwise, and the two
  sums start from zero, so the result is the specification's row loss term for term. No finiteness is needed.
-/

noncomputable section

namespace Cert.RefValue

open Idealize.ShloMosaic Idealize.ShloMosaic.ValueIdx Cert.ReferenceIdeal Cert.ReferenceIdeal.Gen

/-- The program's one gather record: offset axes 0 and 2, collapsed and indexed axis 1, one start index per bone. -/
abbrev G : GatherDims S1048576x21x3 S20x1 S1048576x20x3 := gather_S1048576x21x3_S20x1_S1048576x20x3_02_1_n_n_1_1_104857613

/-- THE GATHER READ AT `[b, k, d]`: axes 0 and 2 are offset axes (start 0, the offset coordinate the result's own), axis 1
    is collapsed and indexed: its start is the start index `[k, 0]`, read signed and clamped into `[0, 20]`. -/
theorem gather_apply {α : Type} {w : Nat} (x : S1048576x21x3.Idx → α) (idx : IVec S20x1 w)
    (b : Fin 1048576) (k : Fin 20) (d : Fin 3) :
    Host.gather G x idx (ix3 b k d) = x (ix3 b ⟨min (idx (ix2 k 0)).toInt.toNat 20, by omega⟩ d) := by
  unfold Host.gather
  congr 1
  funext a
  refine Fin.ext ?_
  show G.start (ix3 b k d) idx a + G.batchCoord (ix3 b k d) a + G.offCoord (ix3 b k d) a = _
  rw [GatherDims.batchCoord_eq_zero _ _ _ List.not_mem_nil]
  match a with
  | ⟨0, _⟩ =>
    have h0 : (⟨0, by decide⟩ : Fin 3) ∉ G.startIndexMap := by decide
    unfold GatherDims.start
    rw [dif_neg h0]
    have hk : (⟨0, by decide⟩ : Fin 3) ∈ G.sKept := by decide
    unfold GatherDims.offCoord
    rw [dif_pos hk]
    have he : ∀ h, G.offsetDims[List.idxOf (⟨0, by decide⟩ : Fin 3) G.sKept]'h = (⟨0, by decide⟩ : Fin 3) := by decide
    rw [he]
    simp only [Nat.zero_add]
  | ⟨1, _⟩ =>
    have h1 : (⟨1, by decide⟩ : Fin 3) ∈ G.startIndexMap := List.mem_singleton.mpr rfl
    rw [GatherDims.offCoord_eq_zero _ _ _ (fun h => ((GatherDims.mem_sKept _ _).mp h).1 (List.mem_singleton.mpr rfl))]
    simp only [Nat.add_zero]
    unfold GatherDims.start
    rw [dif_pos h1]
    have hsi : G.siIdx (ix3 b k d) ⟨List.idxOf (⟨1, by decide⟩ : Fin 3) G.startIndexMap,
        List.idxOf_lt_length_iff.2 h1⟩ = ix2 k 0 := by
      funext c; refine Fin.ext ?_
      match c with
      | ⟨0, _⟩ => rfl
      | ⟨1, _⟩ => rfl
    rw [hsi]
    rfl
  | ⟨2, _⟩ =>
    have h0 : (⟨2, by decide⟩ : Fin 3) ∉ G.startIndexMap := by decide
    unfold GatherDims.start
    rw [dif_neg h0]
    have hk : (⟨2, by decide⟩ : Fin 3) ∈ G.sKept := by decide
    unfold GatherDims.offCoord
    rw [dif_pos hk]
    have he : ∀ h, G.offsetDims[List.idxOf (⟨2, by decide⟩ : Fin 3) G.sKept]'h = (⟨2, by decide⟩ : Fin 3) := by decide
    rw [he]
    simp only [Nat.zero_add]

/-- A word whose value is below 21 reads the same signed as unsigned. -/
theorem toInt_of_lt {s : BitVec 32} (h : s.toNat < 21) : s.toInt = (s.toNat : Int) := by
  rw [BitVec.toInt_eq_toNat_cond, if_pos (by omega)]

/-- Such a word is not negative: the signed comparison with zero is the bit `0`. -/
theorem cmpi_slt_zero {s : BitVec 32} (h : s.toNat < 21) : IntOp.cmpi .slt s 0#32 = 0#1 := by
  have hs : s.slt 0#32 = false := by
    simp only [BitVec.slt, toInt_of_lt h, BitVec.toInt_zero]
    exact decide_eq_false (by omega)
  show BitVec.ofBool (s.slt 0#32) = 0#1
  rw [hs]; rfl

/-- Read signed, turned into a natural number and clamped into `[0, 20]`, such a word is its value. -/
theorem clamp_of_lt {s : BitVec 32} (h : s.toNat < 21) : min s.toInt.toNat 20 = s.toNat := by
  rw [toInt_of_lt h, Int.toNat_natCast]
  exact Nat.min_eq_left (by omega)

/-- The first gather's start indices: entry `[k, 0]` is the skeleton's `[k, 0]` (the fix-up of a negative index does not apply). -/
theorem word_v7 (sk : (⟨S20x2, .i32⟩ : BufTy).Contents (Elt Ideal)) (hsk : ∀ i, (sk i).toNat < 21) (k : Fin 20) :
    Read.val_main_v7 (F := Ideal) sk (ix2 k 0) = sk (ix2 k 0) := by
  have hi : Read.idx_main_v0 (Read.idx_main_v1 (Read.idx_main_v7 (ix2 k 0))) = ix2 k 0 :=
    funext fun a => Fin.ext (by match a with | ⟨0, _⟩ => exact Nat.div_one _ | ⟨1, _⟩ => rfl)
  rw [Read.val_main_v7_apply, Read.val_main_v6_apply, Read.val_main_v3_apply, Read.val_main_v2_apply, Read.val_main_c_apply,
    Read.val_main_v1_apply, Read.val_main_v0_apply, hi, cmpi_slt_zero (hsk _), select_zero]

/-- The second gather's start indices: entry `[k, 0]` is the skeleton's `[k, 1]`. -/
theorem word_v16 (sk : (⟨S20x2, .i32⟩ : BufTy).Contents (Elt Ideal)) (hsk : ∀ i, (sk i).toNat < 21) (k : Fin 20) :
    Read.val_main_v16 (F := Ideal) sk (ix2 k 0) = sk (ix2 k 1) := by
  have hi : Read.idx_main_v9 (Read.idx_main_v10 (Read.idx_main_v16 (ix2 k 0))) = ix2 k 1 :=
    funext fun a => Fin.ext (by match a with | ⟨0, _⟩ => exact Nat.div_one _ | ⟨1, _⟩ => rfl)
  rw [Read.val_main_v16_apply, Read.val_main_v15_apply, Read.val_main_v12_apply, Read.val_main_v11_apply, Read.val_main_c_1_apply,
    Read.val_main_v10_apply, Read.val_main_v9_apply, hi, cmpi_slt_zero (hsk _), select_zero]

/-- The third and fourth gathers' start indices are the first and second's: the same operations of the same skeleton. -/
theorem v29_eq (sk : (⟨S20x2, .i32⟩ : BufTy).Contents (Elt Ideal)) : Read.val_main_v29 (F := Ideal) sk = Read.val_main_v7 (F := Ideal) sk := rfl
theorem v38_eq (sk : (⟨S20x2, .i32⟩ : BufTy).Contents (Elt Ideal)) : Read.val_main_v38 (F := Ideal) sk = Read.val_main_v16 (F := Ideal) sk := rfl

/-- The gather at `[b, k, d]` when the start index `[k, 0]` is a word whose value is the joint `p`: the operand at joint `p`. -/
theorem gather_word {α : Type} (x : S1048576x21x3.Idx → α) (idx : IVec S20x1 32) (b : Fin 1048576) (k : Fin 20) (d : Fin 3)
    (p : Fin 21) (hp : (idx (ix2 k 0)).toNat = p.val) :
    Host.gather G x idx (ix3 b k d) = x (ix3 b p d) := by
  rw [gather_apply]
  refine congrArg x (funext fun a => Fin.ext ?_)
  match a with
  | ⟨0, _⟩ => rfl
  | ⟨1, _⟩ =>
    show min (idx (ix2 k 0)).toInt.toNat 20 = p.val
    rw [clamp_of_lt (by rw [hp]; exact p.isLt), hp]
  | ⟨2, _⟩ => rfl

/-- The sums' initial value, the word `0x00000000` read as a float, is zero. -/
theorem init_zero : (FloatOps.ofBits .f32 0x00000000#32 : Ideal .f32) = 0 := Ideal.ofBits_zero_f32

section Stages
variable (o g : (⟨S1048576x21x3, .f32⟩ : BufTy).Contents (Elt Ideal)) (sk : (⟨S20x2, .i32⟩ : BufTy).Contents (Elt Ideal))
  (hsk : ∀ i, (sk i).toNat < 21)
include hsk

/-- The four gathered arrays: the first array at each bone's first and second joint, then the second array at the same. -/
theorem v8_apply (b : Fin 1048576) (k : Fin 20) (d : Fin 3) :
    Read.val_main_v8 (F := Ideal) o sk (ix3 b k d) = o (ix3 b (Cert.BoneSpec.joint sk k 0) d) := by
  unfold Read.val_main_v8
  exact gather_word o _ b k d _ (by rw [word_v7 sk hsk k, Cert.BoneSpec.joint_val sk hsk k 0])
theorem v17_apply (b : Fin 1048576) (k : Fin 20) (d : Fin 3) :
    Read.val_main_v17 (F := Ideal) o sk (ix3 b k d) = o (ix3 b (Cert.BoneSpec.joint sk k 1) d) := by
  unfold Read.val_main_v17
  exact gather_word o _ b k d _ (by rw [word_v16 sk hsk k, Cert.BoneSpec.joint_val sk hsk k 1])
theorem v30_apply (b : Fin 1048576) (k : Fin 20) (d : Fin 3) :
    Read.val_main_v30 (F := Ideal) g sk (ix3 b k d) = g (ix3 b (Cert.BoneSpec.joint sk k 0) d) := by
  unfold Read.val_main_v30
  exact gather_word g _ b k d _ (by rw [v29_eq, word_v7 sk hsk k, Cert.BoneSpec.joint_val sk hsk k 0])
theorem v39_apply (b : Fin 1048576) (k : Fin 20) (d : Fin 3) :
    Read.val_main_v39 (F := Ideal) g sk (ix3 b k d) = g (ix3 b (Cert.BoneSpec.joint sk k 1) d) := by
  unfold Read.val_main_v39
  exact gather_word g _ b k d _ (by rw [v38_eq, word_v16 sk hsk k, Cert.BoneSpec.joint_val sk hsk k 1])

/-- The first array's sum over the three axes is the bone's squared length there … -/
theorem sq_v20 (b : Fin 1048576) (k : Fin 20) :
    Read.val_main_v20 (F := Ideal) o sk (ix2 b k)
      = Cert.BoneSpec.sqLen o b (Cert.BoneSpec.joint sk k 0) (Cert.BoneSpec.joint sk k 1) := by
  have hidx : ∀ d : Fin 3, Read.idx_main_v20 (ix2 b k) d = ix3 b k d := fun d =>
    funext fun a => Fin.ext (by match a with | ⟨0, _⟩ => rfl | ⟨1, _⟩ => rfl | ⟨2, _⟩ => rfl)
  rw [Read.val_main_v20_apply, Read.val_main_cst_apply, init_zero, zero_add]
  unfold Cert.BoneSpec.sqLen
  refine Finset.sum_congr rfl fun d _ => ?_
  rw [hidx d, Read.val_main_v19_apply, Read.val_main_v18_apply, v8_apply o sk hsk, v17_apply o sk hsk]
  rfl
/-- … and so is the second array's. -/
theorem sq_v42 (b : Fin 1048576) (k : Fin 20) :
    Read.val_main_v42 (F := Ideal) g sk (ix2 b k)
      = Cert.BoneSpec.sqLen g b (Cert.BoneSpec.joint sk k 0) (Cert.BoneSpec.joint sk k 1) := by
  have hidx : ∀ d : Fin 3, Read.idx_main_v42 (ix2 b k) d = ix3 b k d := fun d =>
    funext fun a => Fin.ext (by match a with | ⟨0, _⟩ => rfl | ⟨1, _⟩ => rfl | ⟨2, _⟩ => rfl)
  rw [Read.val_main_v42_apply, Read.val_main_cst_7_apply, init_zero, zero_add]
  unfold Cert.BoneSpec.sqLen
  refine Finset.sum_congr rfl fun d _ => ?_
  rw [hidx d, Read.val_main_v41_apply, Read.val_main_v40_apply, v30_apply g sk hsk, v39_apply g sk hsk]
  rfl

end Stages

/-- THE REFERENCE'S RESULT IS THE SPECIFICATION: row by row, the sum over the bones of the squared difference of the two
    lengths, each length the root of the sum over the axes of the squared coordinate differences of the bone's joints. -/
theorem ref_loss (o g : (⟨S1048576x21x3, .f32⟩ : BufTy).Contents (Elt Ideal)) (sk : (⟨S20x2, .i32⟩ : BufTy).Contents (Elt Ideal))
    (hsk : ∀ i, (sk i).toNat < 21) :
    Cert.ReferenceIdeal.Read.val_main_v46 (F := Ideal) o g sk = Cert.BoneSpec.loss o g sk := by
  funext i
  have hidx : ∀ k : Fin 20, Read.idx_main_v46 i k = ix2 (⟨(i 0).val, (i 0).isLt⟩ : Fin 1048576) k := fun k =>
    funext fun a => Fin.ext (by match a with | ⟨0, _⟩ => rfl | ⟨1, _⟩ => rfl)
  rw [Read.val_main_v46_apply, Read.val_main_cst_8_apply, init_zero, zero_add]
  show _ = Cert.BoneSpec.lossRow o g sk ⟨(i 0).val, (i 0).isLt⟩
  unfold Cert.BoneSpec.lossRow
  refine Finset.sum_congr rfl fun k _ => ?_
  rw [hidx k, Read.val_main_v45_apply, Read.val_main_v44_apply, Read.val_main_v21_apply, Read.val_main_v43_apply,
    sq_v20 o sk hsk, sq_v42 g sk hsk]
  rfl

end Cert.RefValue

end
-- ==== Proof.PreFacts.lean ====
/-
  The statement's precondition, read back as three facts about its inputs.

  The precondition is a conjunction of four "for all entries" tests, each a reduction by `and` over every axis of an
  array of one-bit words: for each of the two float arrays, |x| < +∞ at every entry; for the table of 32-bit words,
  0 ≤ s (signed) at every entry and s < 21 (signed) at every entry. When the whole conjunction is 1:

    • an extended real x with max x (−x) < ⊤ is neither ⊤ nor ⊥, so it is the coercion of a real;
    • a word s with 0 ≤ s as a signed integer has its top bit clear, so its signed and unsigned readings agree, and
      then s < 21 signed says s.toNat < 21.
-/
import proofs.«408830_j24043226923676_3_alg».proof.Pre_finite_inputs
import proofs.«408830_j24043226923676_3_alg».proof.Proof.Gen.Pre_finite_inputs
import Idealize.ShloMosaic.PureOps.Ideal
import Idealize.ShloMosaic.Lib.ValueIdx
import Idealize.ShloMosaic.Lib.ReduceAll
import Idealize.ShloMosaic.Lib.StableHlo.Predicate

namespace Cert.PreFacts
open Idealize.ShloMosaic
open Cert.Pre_finite_inputs (S1048576x21x3 S20x2 S_)

/-- The rank-0 shape has exactly one index: two indices are functions out of the empty type. -/
theorem subsingleton_S_ : Subsingleton S_.Idx := ⟨fun a b => funext fun d => d.elim0⟩

/-! ## One entry -/

/-- The f32 word 0x7F800000 (sign 0, exponent all ones, fraction 0) denotes +∞. -/
theorem ofBits_inf : Ideal.ofBits .f32 0x7F800000#32 = ⊤ := by simp [Ideal.ofBits, Ideal.ieee]

/-- An extended real whose absolute value max x (−x) is below ⊤ is a real: at ⊥ the maximum is −⊥ = ⊤, at ⊤ it
    is ⊤, and ⊤ < ⊤ is false. -/
theorem real_of_abs_lt_inf (x : EReal) (h : Ideal.cmp .olt (max x (-x)) ⊤ = 1#1) : ∃ r : ℝ, x = (r : EReal) := by
  induction x using EReal.rec with
  | bot => simp [Ideal.cmp] at h
  | top => simp [Ideal.cmp] at h
  | coe r => exact ⟨r, rfl⟩

/-- A 32-bit word with 0 ≤ s and s < 21 as signed integers has unsigned value below 21. From 0 ≤ s.toInt the value
    s.toNat is below 2³¹ (otherwise s.toInt = s.toNat − 2³² < 0); below 2³¹ the signed order is the unsigned one. -/
theorem toNat_lt_of_cmp (s : BitVec 32) (h0 : IntOp.cmpi .sge s 0#32 = 1#1) (h1 : IntOp.cmpi .slt s 21#32 = 1#1) :
    s.toNat < 21 := by
  have hs : s.toNat < 2 ^ 31 := by
    have h0' : (0#32 : BitVec 32).toInt ≤ s.toInt := by
      simpa only [IntOp.cmpi, StableHlo.Predicate.ofBool_eq_one_iff, BitVec.sle, decide_eq_true_eq] using h0
    have hz : (0#32 : BitVec 32).toInt = 0 := by decide
    rw [hz, BitVec.toInt_eq_toNat_cond] at h0'
    have := s.isLt
    split at h0' <;> omega
  have h21 : (21#32 : BitVec 32).toNat = 21 := by decide
  have := (StableHlo.Predicate.slt_iff_toNat hs (by rw [h21]; decide)).1 h1
  rwa [h21] at this

/-! ## Every entry: a reduction by `and` over all axes that is 1 had a 1 at each index -/

/-- "Every |x i| < +∞" gives: every entry of the float array is the coercion of a real. -/
theorem finite_of_all (x : FVec Ideal S1048576x21x3 .f32)
    (hb : S_.BroadcastsInDim S1048576x21x3 (![] : Fin 0 → Fin S1048576x21x3.rank))
    (hr : S1048576x21x3.ReducesTo [0, 1, 2] S_) (hu : 0 < S_.numel)
    (h : Host.reduce IntOp.andi
          (cmpf .olt (Host.absf x) (broadcastInDim S1048576x21x3 ![] hb (constant (F := Ideal) S_ .f32 0x7F800000#32)))
          (constantI S_ 1 1#1) hr hu ValueIdx.ix0 = 1#1) :
    ∀ i, ∃ r : ℝ, x i = (r : EReal) := by
  haveI := subsingleton_S_
  intro i
  have e := Host.reduce_andi_all _ _ hr hu _ h i
  refine real_of_abs_lt_inf (x i) ?_
  rw [← ofBits_inf]
  exact e

/-- "Every 0 ≤ s i" and "every s i < 21", both signed, give: every word of the table has unsigned value below 21. -/
theorem range_of_all (sk : IVec S20x2 32)
    (hb : S_.BroadcastsInDim S20x2 (![] : Fin 0 → Fin S20x2.rank))
    (hr : S20x2.ReducesTo [0, 1] S_) (hu : 0 < S_.numel)
    (hge : Host.reduce IntOp.andi (cmpi .sge sk (broadcastInDim S20x2 ![] hb (constantI S_ 32 0#32)))
          (constantI S_ 1 1#1) hr hu ValueIdx.ix0 = 1#1)
    (hlt : Host.reduce IntOp.andi (cmpi .slt sk (broadcastInDim S20x2 ![] hb (constantI S_ 32 21#32)))
          (constantI S_ 1 1#1) hr hu ValueIdx.ix0 = 1#1) :
    ∀ i, (sk i).toNat < 21 := by
  haveI := subsingleton_S_
  intro i
  have e0 := Host.reduce_andi_all _ _ hr hu _ hge i
  have e1 := Host.reduce_andi_all _ _ hr hu _ hlt i
  exact toNat_lt_of_cmp (sk i) e0 e1

/-! ## The precondition -/

/-- The precondition holds (its one result word is 1) only if both float arrays are real at every entry and every
    word of the table is below 21: a conjunction by `and` of one-bit words is 1 exactly when each conjunct is. -/
theorem of_pre (o g : FVec Ideal Cert.Pre_finite_inputs.S1048576x21x3 .f32) (sk : IVec Cert.Pre_finite_inputs.S20x2 32)
    (h : Cert.Pre_finite_inputs.fn (F := Ideal) o g sk = fun _ => 1#1) :
    (∀ i, ∃ r : ℝ, o i = (r : EReal)) ∧ (∀ i, ∃ r : ℝ, g i = (r : EReal)) ∧ (∀ i, (sk i).toNat < 21) := by
  have h0 := congrFun h ValueIdx.ix0
  dsimp only [Cert.Pre_finite_inputs.fn, Cert.Pre_finite_inputs.fn_part1, andi] at h0
  simp only [IntOp.andi_eq_one] at h0
  obtain ⟨⟨⟨h1, h2⟩, h3⟩, h4⟩ := h0
  exact ⟨finite_of_all o _ _ _ h1, finite_of_all g _ _ _ h2, range_of_all sk _ _ _ h3 h4⟩

end Cert.PreFacts
-- ==== Proof.lean ====
/-
  The kernel's bone-length loss equals the reference's, over the extended reals, on finite inputs whose skeleton
  entries are joint numbers (0 ≤ s < 21).

  Both programs compute, for every batch row, the sum over the twenty bones of the squared difference between the
  bone's length in the output joints and its length in the true joints. The reference gathers the two joints of a
  bone and subtracts; the kernel multiplies the row of 63 flattened coordinates by a 63 x 60 matrix whose column for
  (axis d, bone k) holds +1 at the first joint's coordinate and -1 at the second's, which takes the same difference
  because the coordinates are finite. Both then square, add the three axes into a zero, take square roots, subtract,
  square and add over the bones. The kernel clips the skeleton into 0 … 20 before building the matrix and the
  reference reads negative entries from the end of the joint axis, so the two agree exactly when the entries are
  joint numbers, which the precondition states.

  The frames: each program runs to the end without a fault and leaves its arguments as found — the kernel's by its
  pipeline's run (its host operations write no argument; its body reads its input blocks and overwrites its output
  block), the reference's by its run as a list of host operations. The kernel's idealization rewrote nothing, so
  that conjunct is trivial.
-/
import proofs.«408830_j24043226923676_3_alg».proof.Defs
import proofs.«408830_j24043226923676_3_alg».proof.Proof.Gen.Kernel
import proofs.«408830_j24043226923676_3_alg».proof.Proof.Gen.KernelIdeal
import proofs.«408830_j24043226923676_3_alg».proof.Proof.Gen.ReferenceIdeal
import proofs.«408830_j24043226923676_3_alg».proof.Proof.Gen.Pre_finite_inputs
import proofs.«408830_j24043226923676_3_alg».proof.Proof.Gen.ReferenceIdeal.Run
import proofs.«408830_j24043226923676_3_alg».proof.Proof.Gen.ReferenceIdeal.Read
import proofs.«408830_j24043226923676_3_alg».proof.Proof.FrameB
import proofs.«408830_j24043226923676_3_alg».proof.Proof.FrameI
import proofs.«408830_j24043226923676_3_alg».proof.Proof.ArrayValue
import proofs.«408830_j24043226923676_3_alg».proof.Proof.HostSide
import proofs.«408830_j24043226923676_3_alg».proof.Proof.RefValue
import proofs.«408830_j24043226923676_3_alg».proof.Proof.PreFacts
import Idealize.ShloMosaic.Adequacy
import Idealize.ShloMosaic.Init

noncomputable section

namespace Cert.Proof

open Idealize.ShloMosaic Idealize.SL.Sem

/-- The program as printed runs, faults nowhere, and keeps its arguments. -/
theorem frame_kernel : Cert.frame_Kernel := fun m ρ _ => Cert.Kernel.Fr.frame m ρ

/-- So does its idealization. -/
theorem frame_kernel_ideal : Cert.frame_KernelIdeal := fun m ρ _ => Cert.KernelIdeal.Fr.frame m ρ

/-- So does the reference: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the specification's loss of the launch contents of the arguments. -/
theorem algebraic : Cert.algebraic_KernelIdeal_ReferenceIdeal := by
  intro m ρ m' ρ' hpre hagree
  refine ⟨fun c => Cert.KernelIdeal.Arr.target m c, ?_, ?_⟩
  · refine (θ_run Cert.KernelIdeal.defs _ _).mono (fun r h c => ⟨(h c).1.trans ?_, (h c).2⟩)
      (Cert.KernelIdeal.Fr.run_named (F := Ideal) m ρ)
    obtain ⟨ho, hg, hsk⟩ := Cert.PreFacts.of_pre _ _ _ (hpre c)
    exact Cert.KernelIdeal.Arr.final m c (Cert.KernelIdeal.HostSide.sel_entry m c hsk)
      (Cert.KernelIdeal.HostSide.out_entry m c) (Cert.KernelIdeal.HostSide.gt_entry m c) ho hg
  · refine (θ_run Cert.ReferenceIdeal.defs _ _).mono (fun r h c => ⟨?_, (h c).2⟩)
      (Cert.ReferenceIdeal.Value.run (F := Ideal) m' ρ')
    obtain ⟨-, -, hsk⟩ := Cert.PreFacts.of_pre _ _ _ (hpre c)
    rw [(h c).1, Cert.ReferenceIdeal.Read.val_main_v46_eq, (hagree c).1, (hagree c).2.1, (hagree c).2.2]
    exact Cert.RefValue.ref_loss _ _ _ hsk

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
